-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S128x128 : Shape := ⟨2, ![128, 128]⟩
abbrev S128 : Shape := ⟨1, ![128]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32x1024x128 .f32) (main_arg1 : FVec F S32x1024x128 .f32) (main_arg2 : FVec F S32x1024x128 .f32) (main_arg3 : FVec F S128x128 .f32) (main_arg4 : FVec F S128 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024x128 .f32 := Host.absf main_arg1
  let main_cst_0 : FVec F S_ .f32 := constant S_ .f32 0x7F800000#32
  let main_v5 : FVec F S32x1024x128 .f32 := broadcastInDim S32x1024x128 ![] bcast_S_S32x1024x128 main_cst_0
  let main_v6 : IVec S32x1024x128 1 := cmpf .olt main_v4 main_v5
  let main_c_1 : IVec S_ 1 := constantI S_ 1 1#1
  let main_v7 : IVec S_ 1 := (fun x v => Host.reduce IntOp.andi x v reducesTo_S32x1024x128_S_d0_1_2 h_S_) main_v6 main_c_1
  let main_v8 : IVec S_ 1 := andi main_v3 main_v7
  let main_v9 : FVec F S32x1024x128 .f32 := Host.absf main_arg2
  let main_cst_2 : FVec F S_ .f32 := constant S_ .f32 0x7F800000#32
  let main_v10 : FVec F S32x1024x128 .f32 := broadcastInDim S32x1024x128 ![] bcast_S_S32x1024x128 main_cst_2
  let main_v11 : IVec S32x1024x128 1 := cmpf .olt main_v9 main_v10
  let main_c_3 : IVec S_ 1 := constantI S_ 1 1#1
  let main_v12 : IVec S_ 1 := (fun x v => Host.reduce IntOp.andi x v reducesTo_S32x1024x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S32x1024x128 : Shape := ⟨3, ![32, 1024, 128]⟩
abbrev S128x128 : Shape := ⟨2, ![128, 128]⟩
abbrev S128 : Shape := ⟨1, ![128]⟩
abbrev S32x1024x1024 : Shape := ⟨3, ![32, 1024, 1024]⟩
abbrev S1x1024x128 : Shape := ⟨3, ![1, 1024, 128]⟩
abbrev S1x1024x1024 : Shape := ⟨3, ![1, 1024, 1024]⟩
abbrev S1024x128 : Shape := ⟨2, ![1024, 128]⟩
abbrev S1x128 : Shape := ⟨2, ![1, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S32x1024x128, .f32⟩
  | .hbm, ⟨1, _⟩ => ⟨S32x1024x128, .f32⟩
  | .hbm, ⟨2, _⟩ => ⟨S32x1024x128, .f32⟩
  | .hbm, ⟨3, _⟩ => ⟨S128x128, .f32⟩
  | .hbm, ⟨4, _⟩ => ⟨S128, .f32⟩
  | .hbm, ⟨5, _⟩ => ⟨S32x1024x128, .f32⟩
  | .hbm, ⟨6, _⟩ => ⟨S32x1024x128, .f32⟩
  | .hbm, ⟨7, _⟩ => ⟨S32x1024x1024, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S128x128, .f32⟩
  | .local _ .vmem, ⟨7, _⟩ => ⟨S128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x1024, .f32⟩
  | .local _ .vmem, ⟨13, _⟩ => ⟨S1x1024x1024, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  bitsLt_bf16_f32 : FTy.bits .bf16 < FTy.bits .f32
  broadcasts_S1x128_S1024x128 : S1x128.Broadcasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  shapeCasts_S1024x128_S1x1024x128 : S1024x128.ShapeCasts S1x1024x128
  dot_S1024x128_S128x128_S1024x128_1_1_0_0_n_n_wf : DotDims.WF S1024x128 S128x128 S1024x128 [1] [1] [0] [0] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  dot_S1024x1024_S1024x128_S1024x128_0_0_1_1_n_n_wf : DotDims.WF S1024x1024 S1024x128 S1024x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x1024x128.size a
  hwx0_0 : ∀ i : grid0.Coords, EltTy.bits .f32 = 32 ∨ (Rect.block (s := S32x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x1024x128.size a
  hwx0_1 : ∀ i : grid0.Coords, EltTy.bits .f32 = 32 ∨ (Rect.block (s := S32x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S32x1024x128.size a
  hwx0_2 : ∀ i : grid0.Coords, EltTy.bits .f32 = 32 ∨ (Rect.block (s := S32x1024x128) S1x1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S32x1024x128.size a
  hwx0_5 : ∀ i : grid0.Coords, EltTy.bits .f32 = 32 ∨ (Rect.block (s := S32x1024x128) S1x1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S32x1024x128.size a
  hwx0_6 : ∀ i : grid0.Coords, EltTy.bits .f32 = 32 ∨ (Rect.block (s := S32x1024x128) S1x1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S32x1024x1024.size a
  hwx0_7 : ∀ i : grid0.Coords, EltTy.bits .f32 = 32 ∨ (Rect.block (s := S32x1024x1024) S1x1024x1024.size (cc0_transform_7 i) (hinb0_7 i)).WholeWords (EltTy.packing .f32)

variable [Facts₀]

def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S128x128 : Shape := ⟨2, ![128, 128]⟩
abbrev S128 : Shape := ⟨1, ![128]⟩
abbrev S1x1x128 : Shape := ⟨3, ![1, 1, 128]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩
abbrev S32x1x1024 : Shape := ⟨3, ![32, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024x128, .f32⟩
  | .hbm, ⟨2, _⟩ => ⟨S32x1024x128, .f32⟩
  | .hbm, ⟨3, _⟩ => ⟨S128x128, .f32⟩
  | .hbm, ⟨4, _⟩ => ⟨S128, .f32⟩
  | .hbm, ⟨5, _⟩ => ⟨S32x1024x128, .f32⟩
  | .hbm, ⟨6, _⟩ => ⟨S1x1x128, .f32⟩
  | .hbm, ⟨7, _⟩ => ⟨S32x1024x128, .f32⟩
  | .hbm, ⟨8, _⟩ => ⟨S32x1024x128, .f32⟩
  | .hbm, ⟨9, _⟩ => ⟨S32x1024x128, .f32⟩
  | .hbm, ⟨10, _⟩ => ⟨S32x1024x128, .f32⟩
  | .hbm, ⟨11, _⟩ => ⟨S32x1024x1024, .f32⟩
  | .hbm, ⟨12, _⟩ => ⟨S_, .f32⟩
  | .hbm, ⟨13, _⟩ => ⟨S32x1024x1024, .f32⟩
  | .hbm, ⟨14, _⟩ => ⟨S32x1024x1024, .f32⟩
  | .hbm, ⟨15, _⟩ => ⟨S32x1024x1024, .f32⟩
  | .hbm, ⟨16, _⟩ => ⟨S32x1024x1024, .f32⟩
  | .hbm, ⟨17, _⟩ => ⟨S32x1024x1024, .i1⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S32x1024x1024, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S32x1024x1024, .f32⟩
  | .hbm, ⟨26, _⟩ => ⟨S_, .f32⟩
  | .hbm, ⟨27, _⟩ => ⟨S32x1024x1024, .f32⟩
  | .hbm, ⟨28, _⟩ => ⟨S32x1024x1024, .f32⟩
  | .hbm, ⟨29, _⟩ => ⟨S_, .f32⟩
  | .hbm, ⟨30, _⟩ => ⟨S32x1024, .f32⟩
  | .hbm, ⟨31, _⟩ => ⟨S_, .f32⟩
  | .hbm, ⟨32, _⟩ => ⟨S32x1024, .f32⟩
  | .hbm, ⟨33, _⟩ => ⟨S32x1024, .f32⟩
  | .hbm, ⟨34, _⟩ => ⟨S32x1024x1, .f32⟩
  | .hbm, ⟨35, _⟩ => ⟨S32x1024x1024, .f32⟩
  | .hbm, ⟨36, _⟩ => ⟨S32x1024x1024, .f32⟩
  | .hbm, ⟨37, _⟩ => ⟨S32x1024x1024, .f32⟩
  | .hbm, ⟨38, _⟩ => ⟨S_, .f32⟩
  | .hbm, ⟨39, _⟩ => ⟨S32x1024, .f32⟩
  | .hbm, ⟨40, _⟩ => ⟨S32x1024x1, .f32⟩
  | .hbm, ⟨41, _⟩ => ⟨S32x1024x1024, .f32⟩
  | .hbm, ⟨42, _⟩ => ⟨S32x1024x1024, .f32⟩
  | .hbm, ⟨43, _⟩ => ⟨S_, .f32⟩
  | .hbm, ⟨44, _⟩ => ⟨S32x1024, .f32⟩
  | .hbm, ⟨45, _⟩ => ⟨S_, .f32⟩
  | .hbm, ⟨46, _⟩ => ⟨S32x1024, .f32⟩
  | .hbm, ⟨47, _⟩ => ⟨S32x1024, .f32⟩
  | .hbm, ⟨48, _⟩ => ⟨S32x1x1024, .f32⟩
  | .hbm, ⟨49, _⟩ => ⟨S32x1024x1024, .f32⟩
  | .hbm, ⟨50, _⟩ => ⟨S32x1024x1024, .f32⟩
  | .hbm, ⟨51, _⟩ => ⟨S32x1024x1024, .f32⟩
  | .hbm, ⟨52, _⟩ => ⟨S_, .f32⟩
  | .hbm, ⟨53, _⟩ => ⟨S32x1024, .f32⟩
  | .hbm, ⟨54, _⟩ => ⟨S32x1x1024, .f32⟩
  | .hbm, ⟨55, _⟩ => ⟨S32x1024x1024, .f32⟩
  | .hbm, ⟨56, _⟩ => ⟨S32x1024x1024, .f32⟩
  | .hbm, ⟨57, _⟩ => ⟨S32x1024x128, .f32⟩
  | .hbm, ⟨58, _⟩ => ⟨S32x1024x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  reducesTo_S32x1024x1024_S32x1024_d1 : S32x1024x1024.ReducesTo [1] S32x1024
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  dot_S32x1024x128_S128x128_S32x1024x128_2_1_01_0_n_n_wf : DotDims.WF S32x1024x128 S128x128 S32x1024x128 [2] [1] [0, 1] [0] [] []
  dot_S32x1024x128_S32x1024x128_S32x1024x1024_2_2_1_1_0_0_wf : DotDims.WF S32x1024x128 S32x1024x128 S32x1024x1024 [2] [2] [1] [1] [0] [0]
  dot_S32x1024x1024_S32x1024x128_S32x1024x128_2_1_1_2_0_0_wf : DotDims.WF S32x1024x1024 S32x1024x128 S32x1024x128 [2] [1] [1] [2] [0] [0]
  dot_S32x1024x1024_S32x1024x128_S32x1024x128_1_1_2_2_0_0_wf : DotDims.WF S32x1024x1024 S32x1024x128 S32x1024x128 [1] [1] [2] [2] [0] [0]

variable [Facts₀]

def dot_S32x1024x128_S128x128_S32x1024x128_2_1_01_0_n_n : DotDims S32x1024x128 S128x128 S32x1024x128 where
  lhsContracting := [2]
  rhsContracting := [1]
  lhsNonContracting := [0, 1]
  rhsNonContracting := [0]
  lhsBatch := []
  rhsBatch := []
  wf := dot_S32x1024x128_S128x128_S32x1024x128_2_1_01_0_n_n_wf
def dot_S32x1024x128_S32x1024x128_S32x1024x1024_2_2_1_1_0_0 : DotDims S32x1024x128 S32x1024x128 S32x1024x1024 where
  lhsContracting := [2]
  rhsContracting := [2]
  lhsNonContracting := [1]
  rhsNonContracting := [1]
  lhsBatch := [0]
  rhsBatch := [0]
  wf := dot_S32x1024x128_S32x1024x128_S32x1024x1024_2_2_1_1_0_0_wf
def dot_S32x1024x1024_S32x1024x128_S32x1024x128_2_1_1_2_0_0 : DotDims S32x1024x1024 S32x1024x128 S32x1024x128 where
  lhsContracting := [2]
  rhsContracting := [1]
  lhsNonContracting := [1]
  rhsNonContracting := [2]
  lhsBatch := [0]
  rhsBatch := [0]
  wf := dot_S32x1024x1024_S32x1024x128_S32x1024x128_2_1_1_2_0_0_wf
def dot_S32x1024x1024_S32x1024x128_S32x1024x128_1_1_2_2_0_0 : DotDims S32x1024x1024 S32x1024x128 S32x1024x128 where
  lhsContracting := [1]
  rhsContracting := [1]
  lhsNonContracting := [2]
  rhsNonContracting := [2]
  lhsBatch := [0]
  rhsBatch := [0]
  wf := dot_S32x1024x1024_S32x1024x128_S32x1024x128_1_1_2_2_0_0_wf

class Facts : Prop extends Facts₀ where

variable [Facts]
-- ==== Proof.AttnSpec.lean ====
/-
  The mathematics of the dual-direction attention, for ONE batch element, as functions of coordinates.

  Inputs of one batch: `X`, `W` (rows `n`, features `d`), `Y` (rows `m`, features `d`), the square matrix `A`
  and the vector `β`.  With  coeff n e = tanh (∑ d, W n d · A e d + β e)  and the affinity
  z n m = ∑ d, (X n d · coeff n d) · Y m d,  both programs compute

    s n m   = softplus (z n m) − 1/2,
    a_x     = the softmax of s along m (each row n),     out_x n d = ∑ m, a_x n m · Y m d,
    a_y     = the softmax of s along n (each column m),  out_y m d = ∑ n, a_y n m · X n d.

  They differ in HOW: one side writes softplus as log (1 + e^z) and the softmax numerator as
  (1 + e^z) · e^(−1/2 − max), normalising by a product with the reciprocal of the sum; the other writes
  softplus as max z 0 + log (1 + e^(−|z|)) (behind a comparison of z − 0 with itself that never fires on the
  extended reals), the numerator as e^(s − max) and normalises by a quotient.  The first family of definitions below
  carries the suffix `K`, the second `R`; each is spelt exactly as its program's operations compose, so that reading a
  program at an index needs no algebra, and the algebra between the two families needs no program.
-/
import Idealize.ShloMosaic.PureOps.Ideal
import Idealize.ShloMosaic.Lib.ValueIdx

noncomputable section

namespace Cert.DualAttn

open Idealize.ShloMosaic Idealize.ShloMosaic.ValueIdx

/-! ## Arrays by coordinates -/

/-- Batch `b` of a rank-3 array, as a function of its row and feature. -/
def slab {B R C : Nat} (x : (⟨3, ![B, R, C]⟩ : Shape).Idx → EReal) (b : Fin B) : Fin R → Fin C → EReal :=
  fun n d => x (ix3 b n d)

/-- A rank-2 array as a function of its two coordinates. -/
def mat {R C : Nat} (x : (⟨2, ![R, C]⟩ : Shape).Idx → EReal) : Fin R → Fin C → EReal := fun e d => x (ix2 e d)

/-- A rank-1 array as a function of its coordinate. -/
def vec {C : Nat} (x : (⟨1, ![C]⟩ : Shape).Idx → EReal) : Fin C → EReal := fun e => x (ix1 e)

/-- Every entry is a real number (neither infinity). -/
def Real2 {R C : Nat} (X : Fin R → Fin C → EReal) : Prop := ∀ n d, ∃ r : ℝ, X n d = (r : EReal)
def Real1 {C : Nat} (v : Fin C → EReal) : Prop := ∀ e, ∃ r : ℝ, v e = (r : EReal)

/-! ## The constants, as the extended reals their binary32 patterns denote -/

def cHalf : EReal := Ideal.ofBits .f32 0x3F000000#32      -- 1/2
def cNegHalf : EReal := Ideal.ofBits .f32 0xBF000000#32   -- −1/2
def cOne : EReal := Ideal.ofBits .f32 0x3F800000#32       -- 1
def cZero : EReal := Ideal.ofBits .f32 0x00000000#32      -- 0
def cNegInf : EReal := Ideal.ofBits .f32 0xFF800000#32    -- −∞

section
variable (X Y W : Fin 1024 → Fin 128 → EReal) (A : Fin 128 → Fin 128 → EReal) (β : Fin 128 → EReal)

/-! ## Shared by both sides: the coefficients and the affinity -/

/-- coeff n e = tanh (∑ d, W n d · A e d + β e). -/
def coeff (n : Fin 1024) (e : Fin 128) : EReal := Ideal.tanh ((∑ d : Fin 128, W n d * A e d) + β e)

/-- z n m = ∑ d, (X n d · coeff n d) · Y m d. -/
def aff (n m : Fin 1024) : EReal := ∑ d : Fin 128, (X n d * coeff W A β n d) * Y m d

/-! ## The first spelling: log (1 + e^z), numerators from e^z, reciprocal of the sum -/

def sK (n m : Fin 1024) : EReal := Ideal.log1p (Ideal.exp (aff X Y W A β n m)) - cHalf
def rowMaxK (n : Fin 1024) : EReal := (Finset.univ : Finset (Fin 1024)).fold max cNegInf (fun m => sK X Y W A β n m)
def colMaxK (m : Fin 1024) : EReal := (Finset.univ : Finset (Fin 1024)).fold max cNegInf (fun n => sK X Y W A β n m)
def numXK (n m : Fin 1024) : EReal := (Ideal.exp (aff X Y W A β n m) + cOne) * Ideal.exp (cNegHalf - rowMaxK X Y W A β n)
def numYK (n m : Fin 1024) : EReal := (Ideal.exp (aff X Y W A β n m) + cOne) * Ideal.exp (cNegHalf - colMaxK X Y W A β m)
def denXK (n : Fin 1024) : EReal := ∑ m : Fin 1024, numXK X Y W A β n m
def denYK (m : Fin 1024) : EReal := ∑ n : Fin 1024, numYK X Y W A β n m
def attXK (n m : Fin 1024) : EReal := numXK X Y W A β n m * Ideal.div cOne (denXK X Y W A β n)
def attYK (n m : Fin 1024) : EReal := numYK X Y W A β n m * Ideal.div cOne (denYK X Y W A β m)
def outXK (n : Fin 1024) (d : Fin 128) : EReal := ∑ m : Fin 1024, attXK X Y W A β n m * Y m d
def outYK (m : Fin 1024) (d : Fin 128) : EReal := ∑ n : Fin 1024, attYK X Y W A β n m * X n d

/-! ## The second spelling: max z 0 + log (1 + e^(−|z − 0|)), numerators e^(s − max), quotient by the sum -/

/-- softplus as the sum of the positive part and a logarithm, selected by whether `z − 0` differs from itself. -/
def softplusR (z : EReal) : EReal :=
  Scalar.select (Ideal.cmp .une (z - cZero) (z - cZero)) (z + cZero)
    (max z cZero + Ideal.log1p (Ideal.exp (-(max (z - cZero) (-(z - cZero))))))

def sR (n m : Fin 1024) : EReal := softplusR (aff X Y W A β n m) - cHalf
def rowMaxR (n : Fin 1024) : EReal :=
  max cNegInf ((Finset.univ : Finset (Fin 1024)).fold max cNegInf (fun m => sR X Y W A β n m))
def colMaxR (m : Fin 1024) : EReal :=
  max cNegInf ((Finset.univ : Finset (Fin 1024)).fold max cNegInf (fun n => sR X Y W A β n m))
def numXR (n m : Fin 1024) : EReal := Ideal.exp (sR X Y W A β n m - rowMaxR X Y W A β n)
def numYR (n m : Fin 1024) : EReal := Ideal.exp (sR X Y W A β n m - colMaxR X Y W A β m)
def denXR (n : Fin 1024) : EReal := cZero + ∑ m : Fin 1024, numXR X Y W A β n m
def denYR (m : Fin 1024) : EReal := cZero + ∑ n : Fin 1024, numYR X Y W A β n m
def attXR (n m : Fin 1024) : EReal := Ideal.div (numXR X Y W A β n m) (denXR X Y W A β n)
def attYR (n m : Fin 1024) : EReal := Ideal.div (numYR X Y W A β n m) (denYR X Y W A β m)
def outXR (n : Fin 1024) (d : Fin 128) : EReal := ∑ m : Fin 1024, attXR X Y W A β n m * Y m d
def outYR (m : Fin 1024) (d : Fin 128) : EReal := ∑ n : Fin 1024, attYR X Y W A β n m * X n d

end

end Cert.DualAttn

end
-- ==== Proof.AttnFinite.lean ====
/-
  From the precondition "every float input is finite" to "every entry of every input is a real number".

  The precondition is a conjunction of five tests, one per input; each test is the reduction by ∧ over all axes of
  the entrywise comparison |a i| < +∞, where |x| = max x (−x) on the extended reals and the word 0x7F800000
  denotes +∞. An extended real x with max x (−x) < ⊤ is neither ⊤ (then the maximum is ⊤) nor ⊥ (then −x = ⊤),
  so it is a real.
-/
import proofs.«400862_j48893907698163_3_alg».proof.Pre_finite_inputs
import Idealize.ShloMosaic.Lib.ReduceAll
import Idealize.ShloMosaic.Lib.ValueIdx
import Idealize.ShloMosaic.PureOps.Ideal
import Mathlib.Data.EReal.Basic

namespace Cert.DualAttn.Finite

open Idealize.ShloMosaic

/-- The f32 word 0x7F800000 (sign 0, exponent all ones, fraction 0) denotes +∞. -/
theorem ofBits_posInf : Ideal.ofBits .f32 0x7F800000#32 = (⊤ : EReal) := by
  simp [Ideal.ofBits, Ideal.ieee]

/-- An extended real whose absolute value max x (−x) is below the word of +∞ is a real. -/
theorem real_of_abs_lt (x : EReal)
    (hx : Ideal.cmp .olt (max x (-x)) (Ideal.ofBits .f32 0x7F800000#32) = 1#1) : ∃ r : ℝ, x = r := by
  rw [ofBits_posInf] at hx
  have hlt : max x (-x) < ⊤ := by
    by_contra hn
    simp [Ideal.cmp, hn] at hx
  induction x using EReal.rec with
  | bot => exact absurd hlt (by simp)
  | top => exact absurd hlt (by simp)
  | coe r => exact ⟨r, rfl⟩

instance : Subsingleton Cert.Pre_finite_inputs.S_.Idx := ⟨fun a b => funext fun d => d.elim0⟩

/-- One test of the precondition, over any shape: if the reduction by ∧ over all axes of the entrywise
    comparison |a i| < +∞ is 1, every entry of a is a real. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (h : Host.reduce IntOp.andi
          (cmpf .olt (Host.absf a)
            (broadcastInDim s ![] hb (constant Cert.Pre_finite_inputs.S_ .f32 0x7F800000#32)))
          (constantI Cert.Pre_finite_inputs.S_ 1 1#1) hr hu ValueIdx.ix0 = 1#1) :
    ∀ i, ∃ r : ℝ, a i = (r : EReal) := fun i =>
  real_of_abs_lt (a i) (Host.reduce_andi_all _ _ hr hu ValueIdx.ix0 h i)

/-- The precondition makes every entry of every input a real number. -/
theorem real_of_pre [Cert.Pre_finite_inputs.Facts]
    (a0 a1 a2 : FVec Ideal Cert.Pre_finite_inputs.S32x1024x128 .f32)
    (a3 : FVec Ideal Cert.Pre_finite_inputs.S128x128 .f32) (a4 : FVec Ideal Cert.Pre_finite_inputs.S128 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) ∧
      (∀ i, ∃ r : ℝ, a4 i = (r : EReal)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all _ _ _ a0 h0', real_of_all _ _ _ a1 h1, real_of_all _ _ _ a2 h2,
    real_of_all _ _ _ a3 h3, real_of_all _ _ _ a4 h4⟩

end Cert.DualAttn.Finite
-- ==== Proof.AttnLaw.lean ====
/-
  The algebraic law between the two spellings of the dual-direction attention, on finite inputs.

  With every input entry a real number the affinity z n m is a real.  Over the reals
    max z 0 + log (1 + e^(−|z|)) = log (1 + e^z),
  so the two spellings of s agree and s is a real; a maximum over a nonempty finite family of reals is a real μ;
    e^(s − μ) = (e^z + 1) · e^(−1/2 − μ)    for  s = log (1 + e^z) − 1/2;
  the normalising sum L is a positive real, and u / L = u · (1 / L).  The outer sums then agree term by term.
-/
import proofs.«400862_j48893907698163_3_alg».proof.Proof.AttnSpec
import Idealize.ShloMosaic.PureOps.Ideal.Laws
import Mathlib.Analysis.SpecialFunctions.Log.Basic
import Mathlib.Analysis.SpecialFunctions.Trigonometric.Deriv

noncomputable section

namespace Cert.DualAttn

open Idealize.ShloMosaic Idealize.ShloMosaic.ValueIdx

/-! ## The constants -/

theorem cZero_eq : cZero = 0 := Ideal.ofBits_zero_f32

theorem cOne_eq : cOne = 1 := by
  simp [cOne, Ideal.ofBits, Ideal.ieee]
  rw [← EReal.coe_mul, ← EReal.coe_one, EReal.coe_eq_coe_iff]; norm_num

theorem cHalf_eq : cHalf = ((1 / 2 : ℝ) : EReal) := by
  simp [cHalf, Ideal.ofBits, Ideal.ieee]
  rw [← EReal.coe_mul, EReal.coe_eq_coe_iff]; norm_num

theorem cNegHalf_eq : cNegHalf = ((-1 / 2 : ℝ) : EReal) := by
  simp [cNegHalf, Ideal.ofBits, Ideal.ieee]
  rw [← EReal.coe_mul, ← EReal.coe_neg, EReal.coe_eq_coe_iff]; norm_num

theorem cNegInf_eq : cNegInf = ⊥ := by
  simp [cNegInf, Ideal.ofBits, Ideal.ieee]

/-! ## Finite sums of reals, inside the extended reals -/

/-- The embedding of the reals commutes with a finite sum. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of reals is a real. -/
theorem real_sum {ι : Type} (s : Finset ι) (f : ι → EReal) (h : ∀ i, ∃ r : ℝ, f i = (r : EReal)) :
    ∃ r : ℝ, ∑ i ∈ s, f i = (r : EReal) := by
  choose g hg using h
  exact ⟨∑ i ∈ s, g i, by rw [← coe_sum]; exact Finset.sum_congr rfl (fun i _ => hg i)⟩

section
variable {X Y W : Fin 1024 → Fin 128 → EReal} {A : Fin 128 → Fin 128 → EReal} {β : Fin 128 → EReal}

/-- The coefficients are reals: a hyperbolic tangent of a real. -/
theorem coeff_real (hW : Real2 W) (hA : Real2 A) (hβ : Real1 β) (n : Fin 1024) (e : Fin 128) :
    ∃ r : ℝ, coeff W A β n e = (r : EReal) := by
  obtain ⟨t, ht⟩ := real_sum Finset.univ (fun d => W n d * A e d) (fun d => by
    obtain ⟨w, hw⟩ := hW n d
    obtain ⟨a, ha⟩ := hA e d
    exact ⟨w * a, by rw [hw, ha, EReal.coe_mul]⟩)
  have ht' : ∑ d : Fin 128, W n d * A e d = (t : EReal) := ht
  obtain ⟨b, hb⟩ := hβ e
  exact ⟨Real.tanh (t + b), by rw [coeff, ht', hb, ← EReal.coe_add, Ideal.tanh_coe]⟩

/-- The affinity is a real: a finite sum of products of reals. -/
theorem aff_real (hX : Real2 X) (hY : Real2 Y) (hW : Real2 W) (hA : Real2 A) (hβ : Real1 β) (n m : Fin 1024) :
    ∃ r : ℝ, aff X Y W A β n m = (r : EReal) := by
  exact real_sum Finset.univ (fun d => (X n d * coeff W A β n d) * Y m d) (fun d => by
    obtain ⟨x, hx⟩ := hX n d
    obtain ⟨c, hc⟩ := coeff_real hW hA hβ n d
    obtain ⟨y, hy⟩ := hY m d
    exact ⟨x * c * y, by rw [hx, hc, hy, EReal.coe_mul, EReal.coe_mul]⟩)

end

/-! ## The two spellings of softplus -/

theorem log1p_exp_coe (z : ℝ) :
    Ideal.log1p (Ideal.exp (z : EReal)) = ((Real.log (1 + Real.exp z) : ℝ) : EReal) := by
  have hpos : ¬ (1 + Real.exp z ≤ 0) := not_le.mpr (by positivity)
  rw [Ideal.log1p, Ideal.exp_coe, ← EReal.coe_one, ← EReal.coe_add, Ideal.log_coe, if_neg hpos]

/-- Over the reals:  z + log (1 + e^(−z)) = log (1 + e^z). -/
theorem log_one_add_exp (z : ℝ) : z + Real.log (1 + Real.exp (-z)) = Real.log (1 + Real.exp z) := by
  have h : 1 + Real.exp z = Real.exp z * (1 + Real.exp (-z)) := by
    rw [mul_add, mul_one, ← Real.exp_add, add_neg_cancel, Real.exp_zero, add_comm]
  rw [h, Real.log_mul (Real.exp_pos z).ne' (by positivity), Real.log_exp]

/-- The comparison of a value with itself never fires, and the positive-part spelling is log (1 + e^z). -/
theorem softplusR_coe (z : ℝ) : softplusR (z : EReal) = Ideal.log1p (Ideal.exp (z : EReal)) := by
  have hc : Ideal.cmp .une ((z : EReal) - cZero) ((z : EReal) - cZero) = 0#1 := by
    simp [Ideal.cmp]
  rw [softplusR, hc, select_zero, cZero_eq, sub_zero]
  rcases le_total 0 z with h | h
  · have h1 : max (z : EReal) 0 = z := max_eq_left (by exact_mod_cast h)
    have h2 : max (z : EReal) (-(z : EReal)) = z :=
      max_eq_left (by rw [← EReal.coe_neg, EReal.coe_le_coe_iff]; linarith)
    rw [h1, h2, ← EReal.coe_neg, log1p_exp_coe, log1p_exp_coe, ← EReal.coe_add, log_one_add_exp]
  · have h1 : max (z : EReal) 0 = 0 := max_eq_right (by exact_mod_cast h)
    have h2 : max (z : EReal) (-(z : EReal)) = -(z : EReal) :=
      max_eq_right (by rw [← EReal.coe_neg, EReal.coe_le_coe_iff]; linarith)
    rw [h1, h2, neg_neg, zero_add]

/-! ## The maximum of a nonempty finite family of reals -/

theorem fold_max_real (g : Fin 1024 → ℝ) :
    ∃ μ : ℝ, (Finset.univ : Finset (Fin 1024)).fold max ⊥ (fun m => (g m : EReal)) = (μ : EReal) := by
  have key : ∀ s : Finset (Fin 1024), s.fold max ⊥ (fun m => (g m : EReal)) = ⊥ ∨
      ∃ μ : ℝ, s.fold max ⊥ (fun m => (g m : EReal)) = (μ : EReal) := by
    intro s
    induction s using Finset.induction_on with
    | empty => exact Or.inl (Finset.fold_empty)
    | insert a s ha ih =>
      right
      rw [Finset.fold_insert ha]
      rcases ih with h | ⟨μ, h⟩
      · exact ⟨g a, by rw [h, max_bot_right]⟩
      · exact ⟨max (g a) μ, by rw [h]; exact (EReal.coe_strictMono.monotone.map_max).symm⟩
  rcases key Finset.univ with h | h
  · exfalso
    have hle : ((g 0 : ℝ) : EReal) ≤ (Finset.univ : Finset (Fin 1024)).fold max ⊥ (fun m => (g m : EReal)) :=
      (Finset.le_fold_max _).mpr (Or.inr ⟨0, Finset.mem_univ _, le_rfl⟩)
    rw [h] at hle
    exact absurd hle (not_le.mpr (EReal.bot_lt_coe _))
  · exact h

/-! ## One line of the softmax, for a family of real affinities -/

/-- The numerator: e^(s − μ) = (e^z + 1) · e^(−1/2 − μ) for s = log (1 + e^z) − 1/2. -/
theorem num_real (z μ : ℝ) :
    (Real.exp z + 1) * Real.exp (-1 / 2 - μ) = Real.exp (Real.log (1 + Real.exp z) - 1 / 2 - μ) := by
  have h : Real.log (1 + Real.exp z) - 1 / 2 - μ = Real.log (1 + Real.exp z) + (-1 / 2 - μ) := by ring
  rw [h, Real.exp_add, Real.exp_log (by positivity), add_comm]

/-- The quotient spelling of one softmax weight equals the reciprocal spelling, along a family z of real
    affinities (a row or a column of the affinity matrix). -/
theorem softmax_law (z : Fin 1024 → ℝ) (k : Fin 1024) :
    Ideal.div
        (Ideal.exp ((softplusR (z k : EReal) - cHalf) -
          max cNegInf ((Finset.univ : Finset (Fin 1024)).fold max cNegInf
            (fun j => softplusR (z j : EReal) - cHalf))))
        (cZero + ∑ i : Fin 1024,
          Ideal.exp ((softplusR (z i : EReal) - cHalf) -
            max cNegInf ((Finset.univ : Finset (Fin 1024)).fold max cNegInf
              (fun j => softplusR (z j : EReal) - cHalf))))
      = ((Ideal.exp (z k : EReal) + cOne) * Ideal.exp (cNegHalf -
            (Finset.univ : Finset (Fin 1024)).fold max cNegInf
              (fun j => Ideal.log1p (Ideal.exp (z j : EReal)) - cHalf)))
        * Ideal.div cOne (∑ i : Fin 1024, (Ideal.exp (z i : EReal) + cOne) * Ideal.exp (cNegHalf -
            (Finset.univ : Finset (Fin 1024)).fold max cNegInf
              (fun j => Ideal.log1p (Ideal.exp (z j : EReal)) - cHalf))) := by
  have hs : ∀ j, Ideal.log1p (Ideal.exp (z j : EReal)) - cHalf
      = ((Real.log (1 + Real.exp (z j)) - 1 / 2 : ℝ) : EReal) := fun j => by
    rw [log1p_exp_coe, cHalf_eq, ← EReal.coe_sub]
  simp only [softplusR_coe, hs, cNegInf_eq, max_bot_left]
  obtain ⟨μ, hμ⟩ := fold_max_real (fun j => Real.log (1 + Real.exp (z j)) - 1 / 2)
  rw [hμ]
  have hR : ∀ i, Ideal.exp (((Real.log (1 + Real.exp (z i)) - 1 / 2 : ℝ) : EReal) - (μ : EReal))
      = ((Real.exp (Real.log (1 + Real.exp (z i)) - 1 / 2 - μ) : ℝ) : EReal) := fun i => by
    rw [← EReal.coe_sub, Ideal.exp_coe]
  have hK : ∀ i, (Ideal.exp (z i : EReal) + cOne) * Ideal.exp (cNegHalf - (μ : EReal))
      = ((Real.exp (Real.log (1 + Real.exp (z i)) - 1 / 2 - μ) : ℝ) : EReal) := fun i => by
    rw [cOne_eq, cNegHalf_eq, Ideal.exp_coe, ← EReal.coe_one, ← EReal.coe_add, ← EReal.coe_sub, Ideal.exp_coe,
      ← EReal.coe_mul, num_real]
  simp only [hR, hK, coe_sum, cZero_eq, zero_add]
  have hL : (∑ i : Fin 1024, Real.exp (Real.log (1 + Real.exp (z i)) - 1 / 2 - μ)) ≠ 0 :=
    (Finset.sum_pos (fun i _ => Real.exp_pos _) Finset.univ_nonempty).ne'
  rw [Ideal.div_coe hL, Ideal.div_coe hL, cOne_eq, one_mul]

/-! ## The three laws -/

section
variable {X Y W : Fin 1024 → Fin 128 → EReal} {A : Fin 128 → Fin 128 → EReal} {β : Fin 128 → EReal}

theorem s_law (hX : Real2 X) (hY : Real2 Y) (hW : Real2 W) (hA : Real2 A) (hβ : Real1 β) (n m : Fin 1024) :
    sR X Y W A β n m = sK X Y W A β n m := by
  obtain ⟨z, hz⟩ := aff_real hX hY hW hA hβ n m
  rw [sR, sK, hz, softplusR_coe]

/-- The softmax weights along the rows agree. -/
theorem attX_law (hX : Real2 X) (hY : Real2 Y) (hW : Real2 W) (hA : Real2 A) (hβ : Real1 β) (n m : Fin 1024) :
    attXR X Y W A β n m = attXK X Y W A β n m := by
  choose z hz using aff_real hX hY hW hA hβ
  simp only [attXR, numXR, denXR, rowMaxR, sR, attXK, numXK, denXK, rowMaxK, sK, hz]
  exact softmax_law (fun j => z n j) m

/-- The softmax weights along the columns agree. -/
theorem attY_law (hX : Real2 X) (hY : Real2 Y) (hW : Real2 W) (hA : Real2 A) (hβ : Real1 β) (n m : Fin 1024) :
    attYR X Y W A β n m = attYK X Y W A β n m := by
  choose z hz using aff_real hX hY hW hA hβ
  simp only [attYR, numYR, denYR, colMaxR, sR, attYK, numYK, denYK, colMaxK, sK, hz]
  exact softmax_law (fun i => z i m) n

theorem outX_law (hX : Real2 X) (hY : Real2 Y) (hW : Real2 W) (hA : Real2 A) (hβ : Real1 β)
    (n : Fin 1024) (d : Fin 128) : outXR X Y W A β n d = outXK X Y W A β n d := by
  rw [outXR, outXK]
  exact Finset.sum_congr rfl (fun m _ => by rw [attX_law hX hY hW hA hβ n m])

theorem outY_law (hX : Real2 X) (hY : Real2 Y) (hW : Real2 W) (hA : Real2 A) (hβ : Real1 β)
    (m : Fin 1024) (d : Fin 128) : outYR X Y W A β m d = outYK X Y W A β m d := by
  rw [outYR, outYK]
  exact Finset.sum_congr rfl (fun n _ => by rw [attY_law hX hY hW hA hβ n m])

end

end Cert.DualAttn

end
-- ==== Proof.AttnRef.lean ====
/-
  The reference program read at an index: each of its operations, at explicit coordinates of one batch element, is
  the corresponding function of the second spelling (suffix `R`) of the dual-direction attention. No algebra and no
  finiteness: every step reads one operation at an index and names the operand's index by its coordinates.
-/
import proofs.«400862_j48893907698163_3_alg».proof.Proof.Gen.ReferenceIdeal.Read
import proofs.«400862_j48893907698163_3_alg».proof.Proof.AttnSpec

noncomputable section

namespace Cert.DualAttn.Ref

open Cert.DualAttn Cert.ReferenceIdeal Cert.ReferenceIdeal.Read Idealize.ShloMosaic Idealize.ShloMosaic.ValueIdx

/-- The reference's argument types: rank-3, rank-2 and rank-1 arrays of extended reals. -/
abbrev A3 := (⟨S32x1024x128, .f32⟩ : BufTy).Contents (Elt Ideal)
abbrev A2 := (⟨S128x128, .f32⟩ : BufTy).Contents (Elt Ideal)
abbrev A1 := (⟨S128, .f32⟩ : BufTy).Contents (Elt Ideal)

variable (x0 x1 x2 : A3) (x3 : A2) (x4 : A1)

/-! ## The operand indices at explicit coordinates -/

section Indices
variable (b : Fin 32) (n m : Fin 1024) (e d k : Fin 128) (j : Fin 1024)

theorem lidx_v0 : lidx_main_v0 (ix3 b n e) k = ix3 b n k := funext fun a => Fin.ext (by match a with | ⟨0, _⟩ => rfl | ⟨1, _⟩ => rfl | ⟨2, _⟩ => rfl)
theorem ridx_v0 : ridx_main_v0 (ix3 b n e) k = ix2 e k := funext fun a => Fin.ext (by match a with | ⟨0, _⟩ => rfl | ⟨1, _⟩ => rfl)
theorem idx_v1v2 : idx_main_v1 (idx_main_v2 (ix3 b n e)) = ix1 e := funext fun a => Fin.ext (by match a with | ⟨0, _⟩ => rfl)
theorem lidx_v6 : lidx_main_v6 (ix3 b n m) k = ix3 b n k := funext fun a => Fin.ext (by match a with | ⟨0, _⟩ => rfl | ⟨1, _⟩ => rfl | ⟨2, _⟩ => rfl)
theorem ridx_v6 : ridx_main_v6 (ix3 b n m) k = ix3 b m k := funext fun a => Fin.ext (by match a with | ⟨0, _⟩ => rfl | ⟨1, _⟩ => rfl | ⟨2, _⟩ => rfl)
theorem idx_v13v14 : idx_main_v13 (idx_main_v14 (ix3 b n m)) = ix2 b n := funext fun a => Fin.ext (by match a with | ⟨0, _⟩ => rfl | ⟨1, _⟩ => rfl)
theorem idx_v17 : idx_main_v17 (ix2 b n) j = ix3 b n j := funext fun a => Fin.ext (by match a with | ⟨0, _⟩ => rfl | ⟨1, _⟩ => rfl | ⟨2, _⟩ => rfl)
theorem idx_v18v19 : idx_main_v18 (idx_main_v19 (ix3 b n m)) = ix2 b n := funext fun a => Fin.ext (by match a with | ⟨0, _⟩ => rfl | ⟨1, _⟩ => rfl)
theorem idx_v24v25 : idx_main_v24 (idx_main_v25 (ix3 b n m)) = ix2 b m := funext fun a => Fin.ext (by match a with | ⟨0, _⟩ => rfl | ⟨1, _⟩ => rfl)
theorem idx_v28 : idx_main_v28 (ix2 b m) j = ix3 b j m := funext fun a => Fin.ext (by match a with | ⟨0, _⟩ => rfl | ⟨1, _⟩ => rfl | ⟨2, _⟩ => rfl)
theorem idx_v29v30 : idx_main_v29 (idx_main_v30 (ix3 b n m)) = ix2 b m := funext fun a => Fin.ext (by match a with | ⟨0, _⟩ => rfl | ⟨1, _⟩ => rfl)
theorem lidx_v32 : lidx_main_v32 (ix3 b n d) j = ix3 b n j := funext fun a => Fin.ext (by match a with | ⟨0, _⟩ => rfl | ⟨1, _⟩ => rfl | ⟨2, _⟩ => rfl)
theorem ridx_v32 : ridx_main_v32 (ix3 b n d) j = ix3 b j d := funext fun a => Fin.ext (by match a with | ⟨0, _⟩ => rfl | ⟨1, _⟩ => rfl | ⟨2, _⟩ => rfl)
theorem lidx_v33 : lidx_main_v33 (ix3 b m d) j = ix3 b j m := funext fun a => Fin.ext (by match a with | ⟨0, _⟩ => rfl | ⟨1, _⟩ => rfl | ⟨2, _⟩ => rfl)
theorem ridx_v33 : ridx_main_v33 (ix3 b m d) j = ix3 b j d := funext fun a => Fin.ext (by match a with | ⟨0, _⟩ => rfl | ⟨1, _⟩ => rfl | ⟨2, _⟩ => rfl)

/-- The index over `(b, n)` with `j` inserted on the last axis. -/
theorem lift_d2 (h : S32x1024x1024.Reduces [2] S32x1024) : h.lift (ix2 b n) j = ix3 b n j := funext fun a => Fin.ext (by match a with | ⟨0, _⟩ => rfl | ⟨1, _⟩ => rfl | ⟨2, _⟩ => rfl)
/-- The index over `(b, m)` with `j` inserted on the middle axis. -/
theorem lift_d1 (h : S32x1024x1024.Reduces [1] S32x1024) : h.lift (ix2 b m) j = ix3 b j m := funext fun a => Fin.ext (by match a with | ⟨0, _⟩ => rfl | ⟨1, _⟩ => rfl | ⟨2, _⟩ => rfl)

end Indices

/-! ## The coefficients and the affinity -/

/-- The linear layer: `∑ d, W n d · A e d + β e`. -/
theorem ref_lin (b : Fin 32) (n : Fin 1024) (e : Fin 128) :
    val_main_v3 (F := Ideal) x2 x3 x4 (ix3 b n e) = (∑ d : Fin 128, slab x2 b n d * mat x3 e d) + vec x4 e := by
  rw [val_main_v3_apply, val_main_v0_apply, val_main_v2_apply, val_main_v1_apply]
  simp only [lidx_v0, ridx_v0, idx_v1v2, Ideal.addf_def]
  rfl

theorem ref_coeff (b : Fin 32) (n : Fin 1024) (e : Fin 128) :
    val_main_v4 (F := Ideal) x2 x3 x4 (ix3 b n e) = coeff (slab x2 b) (mat x3) (vec x4) n e := by
  rw [val_main_v4_apply, Ideal.hostUnary_tanh_def, ref_lin]
  rfl

theorem ref_aff (b : Fin 32) (n m : Fin 1024) :
    val_main_v6 (F := Ideal) x0 x1 x2 x3 x4 (ix3 b n m)
      = aff (slab x0 b) (slab x1 b) (slab x2 b) (mat x3) (vec x4) n m := by
  rw [val_main_v6_apply]
  unfold aff
  refine Finset.sum_congr rfl fun k _ => ?_
  rw [lidx_v6, ridx_v6, val_main_v5_apply, Ideal.mulf_def, ref_coeff]
  rfl

/-! ## softplus and the shifted affinity -/

theorem ref_softplus (b : Fin 32) (n m : Fin 1024) :
    val_main_v7 (F := Ideal) x0 x1 x2 x3 x4 (ix3 b n m)
      = softplusR (aff (slab x0 b) (slab x1 b) (slab x2 b) (mat x3) (vec x4) n m) := by
  simp only [val_main_v7_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, ref_aff, Ideal.cmpf_def, Ideal.subf_def, Ideal.addf_def,
    Ideal.maximumf_def, Ideal.hostUnary_log1p_def, Ideal.hostUnary_exp_def, Ideal.hostNegf_def, Ideal.negf_def,
    Ideal.hostAbsf_def, Ideal.absf_def, Ideal.ofBits_def]
  rfl

theorem ref_s (b : Fin 32) (n m : Fin 1024) :
    val_main_v9 (F := Ideal) x0 x1 x2 x3 x4 (ix3 b n m)
      = sR (slab x0 b) (slab x1 b) (slab x2 b) (mat x3) (vec x4) n m := by
  simp only [val_main_v9_apply, val_main_v8_apply, val_main_cst_apply, ref_softplus, Ideal.subf_def, Ideal.ofBits_def]
  rfl

/-! ## The two maxima -/

theorem ref_rowMax (b : Fin 32) (n : Fin 1024) :
    val_main_v12 (F := Ideal) x0 x1 x2 x3 x4 (ix2 b n)
      = rowMaxR (slab x0 b) (slab x1 b) (slab x2 b) (mat x3) (vec x4) n := by
  have hr : S32x1024x1024.Reduces [2] S32x1024 := by decide
  rw [val_main_v12_apply, val_main_v11_apply, val_main_cst_1_apply, Ideal.maximumf_def, Ideal.ofBits_def]
  unfold val_main_v10
  rw [Host.reduce_eq_fold_single FloatOps.maximumf _ _ Gen.reducesTo_S32x1024x1024_S32x1024_d2 hr Gen.h_S_ (ix2 b n)]
  unfold rowMaxR
  refine congrArg (max cNegInf) ?_
  exact congrArg (fun f => (Finset.univ : Finset (Fin 1024)).fold max cNegInf f)
    (funext fun j => (congrArg _ (lift_d2 b n j hr)).trans (ref_s x0 x1 x2 x3 x4 b n j))

theorem ref_colMax (b : Fin 32) (m : Fin 1024) :
    val_main_v23 (F := Ideal) x0 x1 x2 x3 x4 (ix2 b m)
      = colMaxR (slab x0 b) (slab x1 b) (slab x2 b) (mat x3) (vec x4) m := by
  have hr : S32x1024x1024.Reduces [1] S32x1024 := by decide
  rw [val_main_v23_apply, val_main_v22_apply, val_main_cst_4_apply, Ideal.maximumf_def, Ideal.ofBits_def]
  unfold val_main_v21
  rw [Host.reduce_eq_fold_single FloatOps.maximumf _ _ Gen.reducesTo_S32x1024x1024_S32x1024_d1 hr Gen.h_S_ (ix2 b m)]
  unfold colMaxR
  refine congrArg (max cNegInf) ?_
  exact congrArg (fun f => (Finset.univ : Finset (Fin 1024)).fold max cNegInf f)
    (funext fun j => (congrArg _ (lift_d1 b m j hr)).trans (ref_s x0 x1 x2 x3 x4 b j m))

/-! ## Numerators, sums and quotients -/

theorem ref_numX (b : Fin 32) (n m : Fin 1024) :
    val_main_v16 (F := Ideal) x0 x1 x2 x3 x4 (ix3 b n m)
      = numXR (slab x0 b) (slab x1 b) (slab x2 b) (mat x3) (vec x4) n m := by
  rw [val_main_v16_apply, val_main_v15_apply, val_main_v14_apply, val_main_v13_apply, idx_v13v14, ref_s, ref_rowMax,
    Ideal.hostUnary_exp_def, Ideal.subf_def]
  rfl

theorem ref_numY (b : Fin 32) (n m : Fin 1024) :
    val_main_v27 (F := Ideal) x0 x1 x2 x3 x4 (ix3 b n m)
      = numYR (slab x0 b) (slab x1 b) (slab x2 b) (mat x3) (vec x4) n m := by
  rw [val_main_v27_apply, val_main_v26_apply, val_main_v25_apply, val_main_v24_apply, idx_v24v25, ref_s, ref_colMax,
    Ideal.hostUnary_exp_def, Ideal.subf_def]
  rfl

theorem ref_denX (b : Fin 32) (n : Fin 1024) :
    val_main_v17 (F := Ideal) x0 x1 x2 x3 x4 (ix2 b n)
      = denXR (slab x0 b) (slab x1 b) (slab x2 b) (mat x3) (vec x4) n := by
  rw [val_main_v17_apply, val_main_cst_2_apply, Ideal.ofBits_def]
  unfold denXR
  refine congrArg (cZero + ·) (Finset.sum_congr rfl fun j _ => ?_)
  rw [idx_v17, ref_numX]

theorem ref_denY (b : Fin 32) (m : Fin 1024) :
    val_main_v28 (F := Ideal) x0 x1 x2 x3 x4 (ix2 b m)
      = denYR (slab x0 b) (slab x1 b) (slab x2 b) (mat x3) (vec x4) m := by
  rw [val_main_v28_apply, val_main_cst_5_apply, Ideal.ofBits_def]
  unfold denYR
  refine congrArg (cZero + ·) (Finset.sum_congr rfl fun j _ => ?_)
  rw [idx_v28, ref_numY]

theorem ref_attX (b : Fin 32) (n m : Fin 1024) :
    val_main_v20 (F := Ideal) x0 x1 x2 x3 x4 (ix3 b n m)
      = attXR (slab x0 b) (slab x1 b) (slab x2 b) (mat x3) (vec x4) n m := by
  rw [val_main_v20_apply, val_main_v19_apply, val_main_v18_apply, idx_v18v19, ref_numX, ref_denX, Ideal.hostDivf_def]
  rfl

theorem ref_attY (b : Fin 32) (n m : Fin 1024) :
    val_main_v31 (F := Ideal) x0 x1 x2 x3 x4 (ix3 b n m)
      = attYR (slab x0 b) (slab x1 b) (slab x2 b) (mat x3) (vec x4) n m := by
  rw [val_main_v31_apply, val_main_v30_apply, val_main_v29_apply, idx_v29v30, ref_numY, ref_denY, Ideal.hostDivf_def]
  rfl

/-! ## The two results -/

theorem ref_outX (b : Fin 32) (n : Fin 1024) (d : Fin 128) :
    val_main_v32 (F := Ideal) x0 x1 x2 x3 x4 (ix3 b n d)
      = outXR (slab x0 b) (slab x1 b) (slab x2 b) (mat x3) (vec x4) n d := by
  rw [val_main_v32_apply]
  unfold outXR
  refine Finset.sum_congr rfl fun j _ => ?_
  rw [lidx_v32, ridx_v32, ref_attX]
  rfl

theorem ref_outY (b : Fin 32) (m : Fin 1024) (d : Fin 128) :
    val_main_v33 (F := Ideal) x0 x1 x2 x3 x4 (ix3 b m d)
      = outYR (slab x0 b) (slab x1 b) (slab x2 b) (mat x3) (vec x4) m d := by
  rw [val_main_v33_apply]
  unfold outYR
  refine Finset.sum_congr rfl fun j _ => ?_
  rw [lidx_v33, ridx_v33, ref_attY]
  rfl

end Cert.DualAttn.Ref

end
-- ==== Proof.AttnKerFront.lean ====
/-
  The first half of the kernel body's arithmetic, read at an index, is the first spelling of the dual-direction
  attention: the loaded blocks through their unit-axis casts, the linear layer and the coefficients, the affinity as a
  sum over the feature axis, s = log (1 + e^z) − 1/2, and the two scale factors e^(−1/2 − max) along each row and
  each column.  Only reading: every operation is pointwise on the extended reals or a layout operation, except the two
  contractions (each a finite sum over the one contracted axis) and the two maxima (each a fold of max over one axis).
-/
import proofs.«400862_j48893907698163_3_alg».proof.Proof.Gen.KernelIdeal.Skeleton
import proofs.«400862_j48893907698163_3_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.DualAttn.Ker

open Idealize.ShloMosaic Idealize.ShloMosaic.ValueIdx Cert.KernelIdeal Cert.KernelIdeal.Gen Cert.DualAttn

/-! ## The loaded blocks without their unit batch axis -/

/-- The block of X viewed [1024, 128] reads, at (n, d), the block at (0, n, d). -/
theorem pay4_apply (v0 : Vec Ideal S1x1024x128 .f32) (n : Fin 1024) (d : Fin 128) :
    k0_pay4 (F := Ideal) v0 (ix2 n d) = v0 (ix3 0 n d) := by
  unfold k0_pay4
  exact shapeCast_1ab_ab_apply v0 _ n d

/-- The block of Y viewed [1024, 128] (its narrowing is the identity on extended reals) reads, at (m, d), the block at
    (0, m, d). -/
theorem pay5_apply (v2 : Vec Ideal S1x1024x128 .f32) (m : Fin 1024) (d : Fin 128) :
    k0_pay5 (F := Ideal) v2 (ix2 m d) = v2 (ix3 0 m d) := by
  unfold k0_pay5
  rw [truncf_apply]
  exact shapeCast_1ab_ab_apply v2 _ m d

/-! ## The first contraction: rows of W against rows of A -/

theorem lhs_lin_0 (i : S1024x128.Idx) (q : dot_S1024x128_S128x128_S1024x128_1_1_0_0_n_n.contr.Idx) :
    (dot_S1024x128_S128x128_S1024x128_1_1_0_0_n_n.lhsIdx i q 0).val = (i 0).val := by
  unfold DotDims.lhsIdx
  rw [dif_neg (show ¬(0 : Fin S1024x128.rank) ∈ dot_S1024x128_S128x128_S1024x128_1_1_0_0_n_n.lhsBatch by decide), dif_pos (show (0 : Fin S1024x128.rank) ∈ dot_S1024x128_S128x128_S1024x128_1_1_0_0_n_n.lhsNonContracting by decide)]
  rfl
theorem lhs_lin_1 (i : S1024x128.Idx) (q : dot_S1024x128_S128x128_S1024x128_1_1_0_0_n_n.contr.Idx) :
    (dot_S1024x128_S128x128_S1024x128_1_1_0_0_n_n.lhsIdx i q 1).val = (q ⟨0, by decide⟩).val :=
  dot_S1024x128_S128x128_S1024x128_1_1_0_0_n_n.lhsIdx_val_of_single rfl i q
theorem rhs_lin_0 (i : S1024x128.Idx) (q : dot_S1024x128_S128x128_S1024x128_1_1_0_0_n_n.contr.Idx) :
    (dot_S1024x128_S128x128_S1024x128_1_1_0_0_n_n.rhsIdx i q 0).val = (i 1).val := by
  unfold DotDims.rhsIdx
  rw [dif_neg (show ¬(0 : Fin S128x128.rank) ∈ dot_S1024x128_S128x128_S1024x128_1_1_0_0_n_n.rhsBatch by decide), dif_pos (show (0 : Fin S128x128.rank) ∈ dot_S1024x128_S128x128_S1024x128_1_1_0_0_n_n.rhsNonContracting by decide)]
  rfl
theorem rhs_lin_1 (i : S1024x128.Idx) (q : dot_S1024x128_S128x128_S1024x128_1_1_0_0_n_n.contr.Idx) :
    (dot_S1024x128_S128x128_S1024x128_1_1_0_0_n_n.rhsIdx i q 1).val = (q ⟨0, by decide⟩).val :=
  dot_S1024x128_S128x128_S1024x128_1_1_0_0_n_n.rhsIdx_val_of_single rfl i q

/-- The product of a [1024, 128] and a [128, 128] matrix contracted over the second axis of both, into zero: at (n, e)
    the sum over d of the left at (n, d) times the right at (e, d). -/
theorem lin_apply (a : FVec Ideal S1024x128 .bf16) (b : FVec Ideal S128x128 .bf16) (n : Fin 1024) (e : Fin 128) :
    matmul dot_S1024x128_S128x128_S1024x128_1_1_0_0_n_n none a b (constant (F := Ideal) S1024x128 .f32 0x00000000#32) (ix2 n e)
      = ∑ d : Fin 128, a (ix2 n d) * b (ix2 e d) := by
  simp only [matmul]
  rw [Ideal.matmul_constant_zero_apply, ← Equiv.sum_comp (contrEquiv1 dot_S1024x128_S128x128_S1024x128_1_1_0_0_n_n 128 rfl rfl).symm]
  refine Finset.sum_congr rfl fun k _ => ?_
  have hk := contrEquiv1_symm_val dot_S1024x128_S128x128_S1024x128_1_1_0_0_n_n 128 rfl rfl k
  have el : dot_S1024x128_S128x128_S1024x128_1_1_0_0_n_n.lhsIdx (ix2 n e) ((contrEquiv1 dot_S1024x128_S128x128_S1024x128_1_1_0_0_n_n 128 rfl rfl).symm k) = ix2 n k := funext fun x => Fin.ext (by
    match x with
    | ⟨0, _⟩ => exact lhs_lin_0 _ _
    | ⟨1, _⟩ => exact (lhs_lin_1 _ _).trans hk)
  have er : dot_S1024x128_S128x128_S1024x128_1_1_0_0_n_n.rhsIdx (ix2 n e) ((contrEquiv1 dot_S1024x128_S128x128_S1024x128_1_1_0_0_n_n 128 rfl rfl).symm k) = ix2 e k := funext fun x => Fin.ext (by
    match x with
    | ⟨0, _⟩ => exact rhs_lin_0 _ _
    | ⟨1, _⟩ => exact (rhs_lin_1 _ _).trans hk)
  rw [el, er]

/-! ## The pointwise transcendental operations at an index: the extended reals' -/

theorem exp_apply {s : Shape} {φ : FTy} (x : FVec Ideal s φ) (i : s.Idx) : exp x i = Ideal.exp (x i) := rfl
theorem log1p_apply {s : Shape} {φ : FTy} (x : FVec Ideal s φ) (i : s.Idx) : log1p x i = Ideal.log1p (x i) := rfl
theorem tanh_apply {s : Shape} {φ : FTy} (x : FVec Ideal s φ) (i : s.Idx) : tanh x i = Ideal.tanh (x i) := rfl

/-! ## The coefficients -/

/-- The vector β viewed [1, 128] and repeated over the 1024 rows reads β e at (n, e). -/
theorem bias_apply (v7 : Vec Ideal S128 .f32) (n : Fin 1024) (e : Fin 128) :
    broadcastTo S1024x128 (shapeCast S1x128 v7 shapeCasts_S128_S1x128) broadcasts_S1x128_S1024x128 (ix2 n e) = v7 (ix1 e) :=
  (broadcastTo_1b_ab_apply _ _ n e).trans (shapeCast_a_1a_apply v7 _ 0 e)

/-- tanh of the linear layer plus β, at (n, e), is the coefficient coeff n e of the block's one batch. -/
theorem coeff_apply (v4 : Vec Ideal S1x1024x128 .f32) (v6 : Vec Ideal S128x128 .f32) (v7 : Vec Ideal S128 .f32)
    (n : Fin 1024) (e : Fin 128) :
    tanh (addf
        (matmul dot_S1024x128_S128x128_S1024x128_1_1_0_0_n_n none
          (truncf .bf16 (shapeCast S1024x128 v4 shapeCasts_S1x1024x128_S1024x128 : FVec Ideal S1024x128 .f32) bitsLt_bf16_f32)
          (truncf .bf16 (v6 : FVec Ideal S128x128 .f32) bitsLt_bf16_f32) (constant (F := Ideal) S1024x128 .f32 0x00000000#32))
        (broadcastTo S1024x128 (shapeCast S1x128 v7 shapeCasts_S128_S1x128) broadcasts_S1x128_S1024x128)) (ix2 n e)
      = coeff (slab v4 0) (mat v6) (vec v7) n e := by
  rw [tanh_apply, addf_apply, lin_apply, bias_apply]
  simp only [truncf_apply, shapeCast_1ab_ab_apply]
  rfl

/-! ## The second contraction: rows of X · coeff against rows of Y -/

theorem lhs_aff_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_aff_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_aff_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_aff_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of two [1024, 128] matrices contracted over the second axis of both, into zero: at (n, m) the sum over d
    of the left at (n, d) times the right at (m, d). -/
theorem affmm_apply (a b : FVec Ideal S1024x128 .bf16) (n m : Fin 1024) :
    matmul dot_S1024x128_S1024x128_S1024x1024_1_1_0_0_n_n none a b (constant (F := Ideal) S1024x1024 .f32 0x00000000#32) (ix2 n m)
      = ∑ d : Fin 128, a (ix2 n d) * b (ix2 m d) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 n m) ((contrEquiv1 dot_S1024x128_S1024x128_S1024x1024_1_1_0_0_n_n 128 rfl rfl).symm k) = ix2 n k := funext fun x => Fin.ext (by
    match x with
    | ⟨0, _⟩ => exact lhs_aff_0 _ _
    | ⟨1, _⟩ => exact (lhs_aff_1 _ _).trans hk)
  have er : dot_S1024x128_S1024x128_S1024x1024_1_1_0_0_n_n.rhsIdx (ix2 n m) ((contrEquiv1 dot_S1024x128_S1024x128_S1024x1024_1_1_0_0_n_n 128 rfl rfl).symm k) = ix2 m k := funext fun x => Fin.ext (by
    match x with
    | ⟨0, _⟩ => exact rhs_aff_0 _ _
    | ⟨1, _⟩ => exact (rhs_aff_1 _ _).trans hk)
  rw [el, er]

/-! ## e^z, s, and s as the stored block -/

/-- The exponential of the second contraction, at (n, m), is e^(z n m). -/
theorem pay6_apply (v0 v2 v4 : Vec Ideal S1x1024x128 .f32) (v6 : Vec Ideal S128x128 .f32) (v7 : Vec Ideal S128 .f32)
    (n m : Fin 1024) :
    k0_pay6 (F := Ideal) v0 v2 v4 v6 v7 (ix2 n m)
      = Ideal.exp (aff (slab v0 0) (slab v2 0) (slab v4 0) (mat v6) (vec v7) n m) := by
  unfold k0_pay6
  rw [exp_apply, affmm_apply]
  refine congrArg Ideal.exp (Finset.sum_congr rfl fun d _ => ?_)
  rw [truncf_apply, mulf_apply, pay4_apply, pay5_apply, coeff_apply]
  rfl

/-- log (1 + e^z) − 1/2 at (n, m). -/
theorem pay7_apply (v0 v2 v4 : Vec Ideal S1x1024x128 .f32) (v6 : Vec Ideal S128x128 .f32) (v7 : Vec Ideal S128 .f32)
    (n m : Fin 1024) :
    k0_pay7 (F := Ideal) v0 v2 v4 v6 v7 (ix2 n m) = sK (slab v0 0) (slab v2 0) (slab v4 0) (mat v6) (vec v7) n m := by
  unfold k0_pay7
  rw [subf_apply, log1p_apply, broadcast_apply, pay6_apply]
  rfl

/-- The same under a unit batch axis, as it is stored. -/
theorem pay8_apply (v0 v2 v4 : Vec Ideal S1x1024x128 .f32) (v6 : Vec Ideal S128x128 .f32) (v7 : Vec Ideal S128 .f32)
    (n m : Fin 1024) :
    k0_pay8 (F := Ideal) v0 v2 v4 v6 v7 (ix3 0 n m) = sK (slab v0 0) (slab v2 0) (slab v4 0) (mat v6) (vec v7) n m := by
  unfold k0_pay8
  exact (shapeCast_ab_1ab_apply _ _ 0 n m).trans (pay7_apply v0 v2 v4 v6 v7 n m)

/-! ## The maxima along rows and along columns, and the two scale factors -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The maximum over the second axis of a [1024, 1024] array from −∞, at n: the fold of max over m of the array at
    (n, m). -/
theorem rowMax_apply (src : FVec Ideal S1024x1024 .f32) (h : S1024x1024.Reduces [1] S1024) (hφ : FKind.Formats .f32)
    (hacc : (0xFF800000#32 : BitVec 32) = FKind.maximumf.neutral .f32 hφ) (n : Fin 1024) :
    multiReduction (F := Ideal) .maximumf [1] S1024 src 0xFF800000#32 h hφ hacc (ix1 n)
      = (Finset.univ : Finset (Fin 1024)).fold max cNegInf (fun m => src (ix2 n m)) := by
  refine (Ideal.multiReduction_maximumf_single src 0xFF800000#32 h hφ hacc (ix1 n)).trans ?_
  refine congrArg (fun f => (Finset.univ : Finset (Fin 1024)).fold max cNegInf f) (funext fun m => ?_)
  refine congrArg src (funext fun c => Fin.ext ?_)
  match c with
  | ⟨0, _⟩ => rfl
  | ⟨1, _⟩ => rfl

/-- The maximum over the first axis, at m: the fold of max over n of the array at (n, m). -/
theorem colMax_apply (src : FVec Ideal S1024x1024 .f32) (h : S1024x1024.Reduces [0] S1024) (hφ : FKind.Formats .f32)
    (hacc : (0xFF800000#32 : BitVec 32) = FKind.maximumf.neutral .f32 hφ) (m : Fin 1024) :
    multiReduction (F := Ideal) .maximumf [0] S1024 src 0xFF800000#32 h hφ hacc (ix1 m)
      = (Finset.univ : Finset (Fin 1024)).fold max cNegInf (fun n => src (ix2 n m)) := by
  refine (Ideal.multiReduction_maximumf_single src 0xFF800000#32 h hφ hacc (ix1 m)).trans ?_
  refine congrArg (fun f => (Finset.univ : Finset (Fin 1024)).fold max cNegInf f) (funext fun n => ?_)
  refine congrArg src (funext fun c => Fin.ext ?_)
  match c with
  | ⟨0, _⟩ => rfl
  | ⟨1, _⟩ => rfl

/-- e^(−1/2 − the maximum of s along row n), kept as a column. -/
theorem pay9_apply (v0 v2 v4 : Vec Ideal S1x1024x128 .f32) (v6 : Vec Ideal S128x128 .f32) (v7 : Vec Ideal S128 .f32)
    (n : Fin 1024) :
    k0_pay9 (F := Ideal) v0 v2 v4 v6 v7 (ix2 n 0)
      = Ideal.exp (cNegHalf - rowMaxK (slab v0 0) (slab v2 0) (slab v4 0) (mat v6) (vec v7) n) := by
  unfold k0_pay9
  rw [exp_apply, subf_apply, broadcast_apply, shapeCast_a_a1_apply]
  refine congrArg (fun t => Ideal.exp (cNegHalf - t)) ?_
  refine (rowMax_apply _ _ _ _ n).trans ?_
  exact congrArg (fun f => (Finset.univ : Finset (Fin 1024)).fold max cNegInf f)
    (funext fun m => pay7_apply v0 v2 v4 v6 v7 n m)

/-- e^(−1/2 − the maximum of s along column m), kept as a row. -/
theorem pay10_apply (v0 v2 v4 : Vec Ideal S1x1024x128 .f32) (v6 : Vec Ideal S128x128 .f32) (v7 : Vec Ideal S128 .f32)
    (m : Fin 1024) :
    k0_pay10 (F := Ideal) v0 v2 v4 v6 v7 (ix2 0 m)
      = Ideal.exp (cNegHalf - colMaxK (slab v0 0) (slab v2 0) (slab v4 0) (mat v6) (vec v7) m) := by
  unfold k0_pay10
  rw [exp_apply, subf_apply, broadcast_apply, shapeCast_a_1a_apply]
  refine congrArg (fun t => Ideal.exp (cNegHalf - t)) ?_
  refine (colMax_apply _ _ _ _ m).trans ?_
  exact congrArg (fun f => (Finset.univ : Finset (Fin 1024)).fold max cNegInf f)
    (funext fun n => pay7_apply v0 v2 v4 v6 v7 n m)

end Cert.DualAttn.Ker

end
-- ==== Proof.AttnKerBack.lean ====
/-
  The second half of the kernel body's arithmetic, read at an index.

  From the matrix E = e^z (entries E n m), the column of row factors r n (a [1024, 1] array) and the row of column
  factors c m (a [1, 1024] array) the body forms, along each direction, the softmax numerators, their sums, the
  normalised weights and the product with the value rows:

    numerator (rows)     (E n m + 1) · r n                 numerator (columns)   (E n m + 1) · c m
    sum                  ∑ m', (E n m' + 1) · r n           sum                   ∑ n', (E n' m + 1) · c m
    weight               numerator · (1 / sum)             weight                numerator · (1 / sum)
    output               ∑ m, weight n m · Y m d           output                ∑ n, weight n m · X n d

  Every step is an operation read at coordinates: the pointwise ones read through, a column [a, 1] (a row [1, b])
  broadcast to [a, b] reads its one entry of that row (column), a sum along one axis is the sum over that axis's
  coordinate, a format change is the identity on extended reals, and a matrix product into the zero array is the sum over
  the one contracted coordinate.  No algebra, and nothing about finiteness.
-/
import proofs.«400862_j48893907698163_3_alg».proof.Proof.Gen.KernelIdeal.Skeleton
import proofs.«400862_j48893907698163_3_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.DualAttn.Ker

open Cert.KernelIdeal Cert.KernelIdeal.Gen Cert.DualAttn
open Idealize.ShloMosaic Idealize.ShloMosaic.ValueIdx
open scoped BigOperators

/-! ## The matrix E + 1 -/

theorem pay1_apply (v19 : FVec Ideal S1024x1024 .f32) (n m : Fin 1024) :
    k0_pay1 (F := Ideal) v19 (ix2 n m) = v19 (ix2 n m) + cOne := rfl

namespace Back

/-! ## Layout operations on a column and a row, read at coordinates -/

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The sums along one axis -/

/-- Over the row index n, the matrix index whose column coordinate is k. -/
theorem lift_row (h : S1024x1024.Reduces [1] S1024) (n : Fin 1024) (k : Fin 1024) :
    h.lift (ix1 n) k = ix2 n k := by
  funext c
  refine Fin.ext ?_
  match c with
  | ⟨0, _⟩ => rfl
  | ⟨1, _⟩ => rfl

/-- Over the column index m, the matrix index whose row coordinate is k. -/
theorem lift_col (h : S1024x1024.Reduces [0] S1024) (m : Fin 1024) (k : Fin 1024) :
    h.lift (ix1 m) k = ix2 k m := by
  funext c
  refine Fin.ext ?_
  match c with
  | ⟨0, _⟩ => rfl
  | ⟨1, _⟩ => rfl

/-- The sum along the lanes, at row n: the sum of that row's entries. -/
theorem rowSum_apply (x : FVec Ideal S1024x1024 .f32) (h : S1024x1024.Reduces [1] S1024) (hφ : FKind.Formats .f32)
    (hacc : (0x00000000#32 : BitVec 32) = 0x00000000#32) (n : Fin 1024) :
    multiReduction (F := Ideal) .add [1] S1024 x 0x00000000#32 h hφ hacc (ix1 n) = ∑ m : Fin 1024, x (ix2 n m) := by
  refine (Ideal.multiReduction_add_single x 0x00000000#32 h hφ hacc (ix1 n)).trans ?_
  exact Finset.sum_congr rfl fun k _ => congrArg x (lift_row h n k)

/-- The sum along the sublanes, at column m: the sum of that column's entries. -/
theorem colSum_apply (x : FVec Ideal S1024x1024 .f32) (h : S1024x1024.Reduces [0] S1024) (hφ : FKind.Formats .f32)
    (hacc : (0x00000000#32 : BitVec 32) = 0x00000000#32) (m : Fin 1024) :
    multiReduction (F := Ideal) .add [0] S1024 x 0x00000000#32 h hφ hacc (ix1 m) = ∑ n : Fin 1024, x (ix2 n m) := by
  refine (Ideal.multiReduction_add_single x 0x00000000#32 h hφ hacc (ix1 m)).trans ?_
  exact Finset.sum_congr rfl fun k _ => congrArg x (lift_col h m k)

/-! ## The two matrix products, read at coordinates -/

theorem lhsX_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhsX_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhsX_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhsX_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product that contracts the left operand's lanes with the right operand's rows, into the zero array:
    out (n, d) = ∑ m, L (n, m) · R (m, d). -/
theorem matmulX_apply (L : FVec Ideal S1024x1024 .bf16) (R : FVec Ideal S1024x128 .bf16) (n : Fin 1024) (d : Fin 128) :
    matmul (F := Ideal) dot_S1024x1024_S1024x128_S1024x128_1_0_0_1_n_n none L R
        (constant (F := Ideal) S1024x128 .f32 0x00000000#32) (ix2 n d)
      = ∑ m : Fin 1024, L (ix2 n m) * R (ix2 m d) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 n d) ((contrEquiv1 dot_S1024x1024_S1024x128_S1024x128_1_0_0_1_n_n 1024 rfl rfl).symm k) = ix2 n k := funext fun a => Fin.ext (by
    match a with
    | ⟨0, _⟩ => exact lhsX_0 _ _
    | ⟨1, _⟩ => exact (lhsX_1 _ _).trans hk)
  have er : dot_S1024x1024_S1024x128_S1024x128_1_0_0_1_n_n.rhsIdx (ix2 n d) ((contrEquiv1 dot_S1024x1024_S1024x128_S1024x128_1_0_0_1_n_n 1024 rfl rfl).symm k) = ix2 k d := funext fun a => Fin.ext (by
    match a with
    | ⟨0, _⟩ => exact (rhsX_0 _ _).trans hk
    | ⟨1, _⟩ => exact rhsX_1 _ _)
  rw [el, er]

theorem lhsY_0 (i : S1024x128.Idx) (q : dot_S1024x1024_S1024x128_S1024x128_0_0_1_1_n_n.contr.Idx) :
    (dot_S1024x1024_S1024x128_S1024x128_0_0_1_1_n_n.lhsIdx i q 0).val = (q ⟨0, by decide⟩).val :=
  dot_S1024x1024_S1024x128_S1024x128_0_0_1_1_n_n.lhsIdx_val_of_single rfl i q
theorem lhsY_1 (i : S1024x128.Idx) (q : dot_S1024x1024_S1024x128_S1024x128_0_0_1_1_n_n.contr.Idx) :
    (dot_S1024x1024_S1024x128_S1024x128_0_0_1_1_n_n.lhsIdx i q 1).val = (i 0).val := by
  unfold DotDims.lhsIdx
  rw [dif_neg (show ¬(1 : Fin S1024x1024.rank) ∈ dot_S1024x1024_S1024x128_S1024x128_0_0_1_1_n_n.lhsBatch by decide), dif_pos (show (1 : Fin S1024x1024.rank) ∈ dot_S1024x1024_S1024x128_S1024x128_0_0_1_1_n_n.lhsNonContracting by decide)]
  rfl
theorem rhsY_0 (i : S1024x128.Idx) (q : dot_S1024x1024_S1024x128_S1024x128_0_0_1_1_n_n.contr.Idx) :
    (dot_S1024x1024_S1024x128_S1024x128_0_0_1_1_n_n.rhsIdx i q 0).val = (q ⟨0, by decide⟩).val :=
  dot_S1024x1024_S1024x128_S1024x128_0_0_1_1_n_n.rhsIdx_val_of_single rfl i q
theorem rhsY_1 (i : S1024x128.Idx) (q : dot_S1024x1024_S1024x128_S1024x128_0_0_1_1_n_n.contr.Idx) :
    (dot_S1024x1024_S1024x128_S1024x128_0_0_1_1_n_n.rhsIdx i q 1).val = (i 1).val := by
  unfold DotDims.rhsIdx
  rw [dif_neg (show ¬(1 : Fin S1024x128.rank) ∈ dot_S1024x1024_S1024x128_S1024x128_0_0_1_1_n_n.rhsBatch by decide), dif_pos (show (1 : Fin S1024x128.rank) ∈ dot_S1024x1024_S1024x128_S1024x128_0_0_1_1_n_n.rhsNonContracting by decide)]
  rfl

/-- The product that contracts the left operand's sublanes with the right operand's rows, into the zero array:
    out (m, d) = ∑ n, L (n, m) · R (n, d). -/
theorem matmulY_apply (L : FVec Ideal S1024x1024 .bf16) (R : FVec Ideal S1024x128 .bf16) (m : Fin 1024) (d : Fin 128) :
    matmul (F := Ideal) dot_S1024x1024_S1024x128_S1024x128_0_0_1_1_n_n none L R
        (constant (F := Ideal) S1024x128 .f32 0x00000000#32) (ix2 m d)
      = ∑ n : Fin 1024, L (ix2 n m) * R (ix2 n d) := by
  simp only [matmul]
  rw [Ideal.matmul_constant_zero_apply, ← Equiv.sum_comp (contrEquiv1 dot_S1024x1024_S1024x128_S1024x128_0_0_1_1_n_n 1024 rfl rfl).symm]
  refine Finset.sum_congr rfl fun k _ => ?_
  have hk := contrEquiv1_symm_val dot_S1024x1024_S1024x128_S1024x128_0_0_1_1_n_n 1024 rfl rfl k
  have el : dot_S1024x1024_S1024x128_S1024x128_0_0_1_1_n_n.lhsIdx (ix2 m d) ((contrEquiv1 dot_S1024x1024_S1024x128_S1024x128_0_0_1_1_n_n 1024 rfl rfl).symm k) = ix2 k m := funext fun a => Fin.ext (by
    match a with
    | ⟨0, _⟩ => exact (lhsY_0 _ _).trans hk
    | ⟨1, _⟩ => exact lhsY_1 _ _)
  have er : dot_S1024x1024_S1024x128_S1024x128_0_0_1_1_n_n.rhsIdx (ix2 m d) ((contrEquiv1 dot_S1024x1024_S1024x128_S1024x128_0_0_1_1_n_n 1024 rfl rfl).symm k) = ix2 k d := funext fun a => Fin.ext (by
    match a with
    | ⟨0, _⟩ => exact (rhsY_0 _ _).trans hk
    | ⟨1, _⟩ => exact rhsY_1 _ _)
  rw [el, er]

/-! ## Along the rows: numerators, their sums, the weights, the output -/

/-- The numerators (E n m + 1) · r n, as an array. -/
def numRow (E : FVec Ideal S1024x1024 .f32) (r : FVec Ideal S1024x1 .f32) : FVec Ideal S1024x1024 .f32 :=
  mulf (k0_pay1 (F := Ideal) E) (broadcastTo S1024x1024 r broadcasts_S1024x1_S1024x1024)

/-- Their sums along each row, as a column. -/
def sumRow (E : FVec Ideal S1024x1024 .f32) (r : FVec Ideal S1024x1 .f32) : FVec Ideal S1024x1 .f32 :=
  shapeCast S1024x1
    (multiReduction (F := Ideal) .add [1] S1024 (numRow E r) 0x00000000#32 reduces_S1024x1024_S1024 (.inl rfl) rfl)
    shapeCasts_S1024_S1024x1

/-- The weights numerator · (1 / sum), as an array. -/
def wRow (E : FVec Ideal S1024x1024 .f32) (r : FVec Ideal S1024x1 .f32) : FVec Ideal S1024x1024 .f32 :=
  mulf (numRow E r)
    (broadcastTo S1024x1024
      (divf (broadcast S1024x1 (Scalar.ofBits (F := Ideal) .f32 0x3F800000#32)) (sumRow E r))
      broadcasts_S1024x1_S1024x1024)

theorem numRow_apply (E : FVec Ideal S1024x1024 .f32) (r : FVec Ideal S1024x1 .f32) (n m : Fin 1024) :
    numRow E r (ix2 n m) = (E (ix2 n m) + cOne) * r (ix2 n 0) := by
  unfold numRow
  rw [mulf_apply, pay1_apply, broadcastTo_a1_ab_apply]

theorem sumRow_apply (E : FVec Ideal S1024x1024 .f32) (r : FVec Ideal S1024x1 .f32) (n : Fin 1024) (u : Fin 1) :
    sumRow E r (ix2 n u) = ∑ m' : Fin 1024, (E (ix2 n m') + cOne) * r (ix2 n 0) := by
  unfold sumRow
  rw [shapeCast_a_a1_apply, rowSum_apply]
  exact Finset.sum_congr rfl fun m' _ => numRow_apply E r n m'

theorem wRow_apply (E : FVec Ideal S1024x1024 .f32) (r : FVec Ideal S1024x1 .f32) (n m : Fin 1024) :
    wRow E r (ix2 n m)
      = ((E (ix2 n m) + cOne) * r (ix2 n 0))
          * Ideal.div cOne (∑ m' : Fin 1024, (E (ix2 n m') + cOne) * r (ix2 n 0)) := by
  unfold wRow
  rw [mulf_apply, numRow_apply, broadcastTo_a1_ab_apply, divf_apply, broadcast_apply, sumRow_apply]
  rfl

end Back

open Back in
theorem pay2_apply (v17 : FVec Ideal S1024x128 .bf16) (v19 : FVec Ideal S1024x1024 .f32) (v32 : FVec Ideal S1024x1 .f32)
    (n : Fin 1024) (d : Fin 128) :
    k0_pay2 (F := Ideal) v17 v19 v32 (ix3 0 n d)
      = ∑ m : Fin 1024, (((v19 (ix2 n m) + cOne) * v32 (ix2 n 0))
          * Ideal.div cOne (∑ m' : Fin 1024, (v19 (ix2 n m') + cOne) * v32 (ix2 n 0))) * v17 (ix2 m d) := by
  show shapeCast S1x1024x128
      (matmul (F := Ideal) dot_S1024x1024_S1024x128_S1024x128_1_0_0_1_n_n none
        (truncf .bf16 (wRow v19 v32) bitsLt_bf16_f32) v17 (constant (F := Ideal) S1024x128 .f32 0x00000000#32))
      shapeCasts_S1024x128_S1x1024x128 (ix3 0 n d) = _
  rw [shapeCast_ab_1ab_apply, matmulX_apply]
  refine Finset.sum_congr rfl fun m _ => ?_
  rw [truncf_apply, wRow_apply]

/-! ## Along the columns: the same with the axes exchanged -/

namespace Back

/-- The numerators (E n m + 1) · c m, as an array. -/
def numCol (E : FVec Ideal S1024x1024 .f32) (c : FVec Ideal S1x1024 .f32) : FVec Ideal S1024x1024 .f32 :=
  mulf (k0_pay1 (F := Ideal) E) (broadcastTo S1024x1024 c broadcasts_S1x1024_S1024x1024)

/-- Their sums down each column, as a row. -/
def sumCol (E : FVec Ideal S1024x1024 .f32) (c : FVec Ideal S1x1024 .f32) : FVec Ideal S1x1024 .f32 :=
  shapeCast S1x1024
    (multiReduction (F := Ideal) .add [0] S1024 (numCol E c) 0x00000000#32 reduces_S1024x1024_S1024_2 (.inl rfl) rfl)
    shapeCasts_S1024_S1x1024

/-- The weights numerator · (1 / sum), as an array. -/
def wCol (E : FVec Ideal S1024x1024 .f32) (c : FVec Ideal S1x1024 .f32) : FVec Ideal S1024x1024 .f32 :=
  mulf (numCol E c)
    (broadcastTo S1024x1024
      (divf (broadcast S1x1024 (Scalar.ofBits (F := Ideal) .f32 0x3F800000#32)) (sumCol E c))
      broadcasts_S1x1024_S1024x1024)

theorem numCol_apply (E : FVec Ideal S1024x1024 .f32) (c : FVec Ideal S1x1024 .f32) (n m : Fin 1024) :
    numCol E c (ix2 n m) = (E (ix2 n m) + cOne) * c (ix2 0 m) := by
  unfold numCol
  rw [mulf_apply, pay1_apply, broadcastTo_1b_ab_apply]

theorem sumCol_apply (E : FVec Ideal S1024x1024 .f32) (c : FVec Ideal S1x1024 .f32) (u : Fin 1) (m : Fin 1024) :
    sumCol E c (ix2 u m) = ∑ n' : Fin 1024, (E (ix2 n' m) + cOne) * c (ix2 0 m) := by
  unfold sumCol
  rw [shapeCast_a_1a_apply, colSum_apply]
  exact Finset.sum_congr rfl fun n' _ => numCol_apply E c n' m

theorem wCol_apply (E : FVec Ideal S1024x1024 .f32) (c : FVec Ideal S1x1024 .f32) (n m : Fin 1024) :
    wCol E c (ix2 n m)
      = ((E (ix2 n m) + cOne) * c (ix2 0 m))
          * Ideal.div cOne (∑ n' : Fin 1024, (E (ix2 n' m) + cOne) * c (ix2 0 m)) := by
  unfold wCol
  rw [mulf_apply, numCol_apply, broadcastTo_1b_ab_apply, divf_apply, broadcast_apply, sumCol_apply]
  rfl

end Back

open Back in
theorem pay3_apply (v1 : FVec Ideal S1024x128 .f32) (v19 : FVec Ideal S1024x1024 .f32) (v35 : FVec Ideal S1x1024 .f32)
    (m : Fin 1024) (d : Fin 128) :
    k0_pay3 (F := Ideal) v1 v19 v35 (ix3 0 m d)
      = ∑ n : Fin 1024, (((v19 (ix2 n m) + cOne) * v35 (ix2 0 m))
          * Ideal.div cOne (∑ n' : Fin 1024, (v19 (ix2 n' m) + cOne) * v35 (ix2 0 m))) * v1 (ix2 n d) := by
  show shapeCast S1x1024x128
      (matmul (F := Ideal) dot_S1024x1024_S1024x128_S1024x128_0_0_1_1_n_n none
        (truncf .bf16 (wCol v19 v35) bitsLt_bf16_f32) (truncf .bf16 v1 bitsLt_bf16_f32)
        (constant (F := Ideal) S1024x128 .f32 0x00000000#32))
      shapeCasts_S1024x128_S1x1024x128 (ix3 0 m d) = _
  rw [shapeCast_ab_1ab_apply, matmulY_apply]
  refine Finset.sum_congr rfl fun n _ => ?_
  rw [truncf_apply, truncf_apply, wCol_apply]

end Cert.DualAttn.Ker

end
-- ==== Proof.AttnKer.lean ====
/-
  What the kernel body leaves in each output window's staging block, read at an index.

  Each output is stored once, whole, so the block the body leaves is the stored value itself. The stored values are the
  body's arithmetic over the loaded input blocks: the block of s is log (1 + e^z) − 1/2 of the block's affinities; the block
  of attention_x is, at (n, d), the sum over m of the row-normalised weights (built from e^z and the row factor
  e^(−1/2 − row maximum)) times Ys; the block of attention_y likewise along the columns against Xs. Put together from
  the two halves of the body read at an index, each is the first spelling of the specification on the block's one batch.
-/
import proofs.«400862_j48893907698163_3_alg».proof.Proof.Gen.KernelIdeal.Frame
import proofs.«400862_j48893907698163_3_alg».proof.Proof.AttnSpec
import proofs.«400862_j48893907698163_3_alg».proof.Proof.AttnKerFront
import proofs.«400862_j48893907698163_3_alg».proof.Proof.AttnKerBack
import Idealize.ShloMosaic.Lib.Pipeline.Value
import Idealize.ShloMosaic.Lib.ValueIdx

noncomputable section

namespace Cert.DualAttn.Ker

open Idealize.ShloMosaic Idealize.ShloMosaic.ValueIdx Cert.KernelIdeal Cert.KernelIdeal.Gen Cert.DualAttn

/-- The origin of a rank-3, rank-2 and rank-1 rectangle. -/
theorem origin3 : (![0, 0, 0] : Fin 3 → Nat) = fun _ => 0 := funext fun a => by fin_cases a <;> rfl
theorem origin2 : (![0, 0] : Fin 2 → Nat) = fun _ => 0 := funext fun a => by fin_cases a <;> rfl
theorem origin1 : (![0] : Fin 1 → Nat) = fun _ => 0 := funext fun a => by fin_cases a <;> rfl

variable (x0 x1 x2 : Vec Ideal S1x1024x128 .f32) (x3 : Vec Ideal S128x128 .f32) (x4 : Vec Ideal S128 .f32)

/-- The block of s the body leaves: at (0, n, m) the shifted softplus of the affinity. -/
theorem ker_s (n m : Fin 1024) :
    out0_7 (F := Ideal) x0 x1 x2 x3 x4 (ix3 0 n m) = sK (slab x0 0) (slab x1 0) (slab x2 0) (mat x3) (vec x4) n m := by
  unfold out0_7
  rw [View.canon_unit_zero origin3]
  simp only [View.ld_unit_zero (S := S1x1024x128) origin3, View.ld_unit_zero (S := S128x128) origin2,
    View.ld_unit_zero (S := S128) origin1]
  exact pay8_apply x0 x1 x2 x3 x4 n m

/-- The block of attention_x the body leaves: at (0, n, d) the row-softmax weights against Ys. -/
theorem ker_outX (n : Fin 1024) (d : Fin 128) :
    out0_5 (F := Ideal) x0 x1 x2 x3 x4 (ix3 0 n d) = outXK (slab x0 0) (slab x1 0) (slab x2 0) (mat x3) (vec x4) n d := by
  unfold out0_5
  rw [View.canon_unit_zero origin3]
  simp only [View.ld_unit_zero (S := S1x1024x128) origin3, View.ld_unit_zero (S := S128x128) origin2,
    View.ld_unit_zero (S := S128) origin1]
  rw [pay2_apply]
  simp only [pay6_apply, pay9_apply, pay5_apply]
  rfl

/-- The block of attention_y the body leaves: at (0, m, d) the column-softmax weights against Xs. -/
theorem ker_outY (m : Fin 1024) (d : Fin 128) :
    out0_6 (F := Ideal) x0 x1 x2 x3 x4 (ix3 0 m d) = outYK (slab x0 0) (slab x1 0) (slab x2 0) (mat x3) (vec x4) m d := by
  unfold out0_6
  rw [View.canon_unit_zero origin3]
  simp only [View.ld_unit_zero (S := S1x1024x128) origin3, View.ld_unit_zero (S := S128x128) origin2,
    View.ld_unit_zero (S := S128) origin1]
  rw [pay3_apply]
  simp only [pay6_apply, pay10_apply, pay4_apply]
  rfl

end Cert.DualAttn.Ker

end
-- ==== Proof.AttnBlocks.lean ====
/-
  From blocks to arrays: what the three result arrays hold after the kernel's run.

  The grid has one point per batch element. Point `t` stages batch `t` of Xs, Ys and weights (blocks [1, 1024, 128]) and
  all of A_w and A_b, and writes back batch `t` of attention_x, attention_y and s. So the input blocks at point `t` are
  the arguments' batch `t`, what the body leaves in an output block is the specification on that batch, and since the 32
  output blocks tile each result array (index `i` lies in the block of point `i 0`), each result array ends as ONE
  function of the argument arrays: at (b, ·, ·) the specification on batch `b`.
-/
import proofs.«400862_j48893907698163_3_alg».proof.Proof.Gen.KernelIdeal.Value
import proofs.«400862_j48893907698163_3_alg».proof.Proof.AttnSpec
import proofs.«400862_j48893907698163_3_alg».proof.Proof.AttnKer
import Idealize.ShloMosaic.Lib.Pipeline.Value
import Idealize.ShloMosaic.Lib.ValueIdx

noncomputable section

namespace Cert.DualAttn.Blocks

open Cert.KernelIdeal Cert.KernelIdeal.Gen Idealize.ShloMosaic Idealize.ShloMosaic.TcCoe Idealize.SL.Sem
open Idealize.ShloMosaic.Pipeline (Dat)
open Idealize.ShloMosaic.ValueIdx Cert.DualAttn
open Cert.DualAttn.Ker

/-! ## The three result arrays as functions of the argument arrays

Batch `b` of each result depends on batch `b` of Xs, Ys and weights only, and on all of A_w and A_b. -/

/-- attention_x: at (b, n, d) the row-softmax weights of batch b against Ys. -/
def GX (a0 a1 a2 : S32x1024x128.Idx → EReal) (a3 : S128x128.Idx → EReal) (a4 : S128.Idx → EReal) : S32x1024x128.Idx → EReal :=
  fun i => outXK (slab a0 (i 0)) (slab a1 (i 0)) (slab a2 (i 0)) (mat a3) (vec a4) (i 1) (i 2)

/-- attention_y: at (b, m, d) the column-softmax weights of batch b against Xs. -/
def GY (a0 a1 a2 : S32x1024x128.Idx → EReal) (a3 : S128x128.Idx → EReal) (a4 : S128.Idx → EReal) : S32x1024x128.Idx → EReal :=
  fun i => outYK (slab a0 (i 0)) (slab a1 (i 0)) (slab a2 (i 0)) (mat a3) (vec a4) (i 1) (i 2)

/-- s: at (b, n, m) the shifted softplus of the affinity of batch b. -/
def GS (a0 a1 a2 : S32x1024x128.Idx → EReal) (a3 : S128x128.Idx → EReal) (a4 : S128.Idx → EReal) : S32x1024x1024.Idx → EReal :=
  fun i => sK (slab a0 (i 0)) (slab a1 (i 0)) (slab a2 (i 0)) (mat a3) (vec a4) (i 1) (i 2)

variable (m : (ℓ : Loc nD τ sig) → Buf (Elt Ideal) ℓ)

/-! ## Where each window's block sits at grid point `t`

The grid is the batch axis: point `t` stages batch `t` of the three batched inputs and of the three results, whole in
the other two axes, and all of the matrix and the vector. -/

/-- The printed index maps over the 32 grid points: block index `(t, 0, 0)` for the batched windows, `0` for the others. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 1) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

theorem t_lt (t : Fin cfg0.N) : t.val < 32 := by have := t.isLt; have h : cfg0.N = 32 := N_0; omega

/-- Grid point `t` as a batch index. -/
def bat (t : Fin cfg0.N) : Fin 32 := ⟨t.val, t_lt t⟩

/-! ## A block's index inside its array -/

theorem emb0 (t : Fin cfg0.N) (n : Fin 1024) (d : Fin 128) :
    ((cfg0.win 0).blk t).view.emb (ix3 (0 : Fin 1) n d) = (ix3 (bat t) n d : S32x1024x128.Idx) := by
  obtain ⟨⟨e0, e1, e2⟩, -⟩ := idx_facts t
  funext a; apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 128 + 1 * d.val = d.val; omega

theorem emb1 (t : Fin cfg0.N) (n : Fin 1024) (d : Fin 128) :
    ((cfg0.win 1).blk t).view.emb (ix3 (0 : Fin 1) n d) = (ix3 (bat t) n d : S32x1024x128.Idx) := by
  obtain ⟨-, ⟨e0, e1, e2⟩, -⟩ := idx_facts t
  funext a; apply Fin.ext
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 128 + 1 * d.val = d.val; omega

theorem emb2 (t : Fin cfg0.N) (n : Fin 1024) (d : Fin 128) :
    ((cfg0.win 2).blk t).view.emb (ix3 (0 : Fin 1) n d) = (ix3 (bat t) n d : S32x1024x128.Idx) := by
  obtain ⟨-, -, ⟨e0, e1, e2⟩, -⟩ := idx_facts t
  funext a; apply Fin.ext
  match a with
  | ⟨0, _⟩ => show win0_2.index t (0 : Fin 3) * 1 + 1 * 0 = t.val; omega
  | ⟨1, _⟩ => show win0_2.index t (1 : Fin 3) * 1024 + 1 * n.val = n.val; omega
  | ⟨2, _⟩ => show win0_2.index t (2 : Fin 3) * 128 + 1 * d.val = d.val; omega

theorem emb3 (t : Fin cfg0.N) (e d : Fin 128) :
    ((cfg0.win 3).blk t).view.emb (ix2 e d) = (ix2 e d : S128x128.Idx) := by
  obtain ⟨-, -, -, ⟨e0, e1⟩, -⟩ := idx_facts t
  funext a; apply Fin.ext
  match a with
  | ⟨0, _⟩ => show win0_3.index t (0 : Fin 2) * 128 + 1 * e.val = e.val; omega
  | ⟨1, _⟩ => show win0_3.index t (1 : Fin 2) * 128 + 1 * d.val = d.val; omega

theorem emb4 (t : Fin cfg0.N) (e : Fin 128) :
    ((cfg0.win 4).blk t).view.emb (ix1 e) = (ix1 e : S128.Idx) := by
  obtain ⟨-, -, -, -, e0, -⟩ := idx_facts t
  funext a; apply Fin.ext
  match a with
  | ⟨0, _⟩ => show win0_4.index t (0 : Fin 1) * 128 + 1 * e.val = e.val; omega

theorem emb5 (t : Fin cfg0.N) (n : Fin 1024) (d : Fin 128) :
    ((cfg0.win 5).blk t).view.emb (ix3 (0 : Fin 1) n d) = (ix3 (bat t) n d : S32x1024x128.Idx) := by
  obtain ⟨-, -, -, -, -, ⟨e0, e1, e2⟩, -⟩ := idx_facts t
  funext a; apply Fin.ext
  match a with
  | ⟨0, _⟩ => show win0_5.index t (0 : Fin 3) * 1 + 1 * 0 = t.val; omega
  | ⟨1, _⟩ => show win0_5.index t (1 : Fin 3) * 1024 + 1 * n.val = n.val; omega
  | ⟨2, _⟩ => show win0_5.index t (2 : Fin 3) * 128 + 1 * d.val = d.val; omega

theorem emb6 (t : Fin cfg0.N) (n : Fin 1024) (d : Fin 128) :
    ((cfg0.win 6).blk t).view.emb (ix3 (0 : Fin 1) n d) = (ix3 (bat t) n d : S32x1024x128.Idx) := by
  obtain ⟨-, -, -, -, -, -, ⟨e0, e1, e2⟩, -⟩ := idx_facts t
  funext a; apply Fin.ext
  match a with
  | ⟨0, _⟩ => show win0_6.index t (0 : Fin 3) * 1 + 1 * 0 = t.val; omega
  | ⟨1, _⟩ => show win0_6.index t (1 : Fin 3) * 1024 + 1 * n.val = n.val; omega
  | ⟨2, _⟩ => show win0_6.index t (2 : Fin 3) * 128 + 1 * d.val = d.val; omega

theorem emb7 (t : Fin cfg0.N) (n k : Fin 1024) :
    ((cfg0.win 7).blk t).view.emb (ix3 (0 : Fin 1) n k) = (ix3 (bat t) n k : S32x1024x1024.Idx) := by
  obtain ⟨-, -, -, -, -, -, -, ⟨e0, e1, e2⟩⟩ := idx_facts t
  funext a; apply Fin.ext
  match a with
  | ⟨0, _⟩ => show win0_7.index t (0 : Fin 3) * 1 + 1 * 0 = t.val; omega
  | ⟨1, _⟩ => show win0_7.index t (1 : Fin 3) * 1024 + 1 * n.val = n.val; omega
  | ⟨2, _⟩ => show win0_7.index t (2 : Fin 3) * 1024 + 1 * k.val = k.val; omega

/-! ## The input blocks at point `t` are batch `t` of the arguments -/

theorem slab_iblk0 (c : Dev nD) (t : Fin cfg0.N) :
    slab (B := 1) (R := 1024) (C := 128) (iblk m c 0 t) 0 = slab (B := 32) (R := 1024) (C := 128) (V m c main_arg0) (bat t) := by
  funext n d
  show V m c (Pipeline.arrRef spec0 0) (((cfg0.win 0).blk t).view.emb (ix3 0 n d)) = V m c main_arg0 (ix3 (bat t) n d)
  rw [emb0]

theorem slab_iblk1 (c : Dev nD) (t : Fin cfg0.N) :
    slab (B := 1) (R := 1024) (C := 128) (iblk m c 1 t) 0 = slab (B := 32) (R := 1024) (C := 128) (V m c main_arg1) (bat t) := by
  funext n d
  show V m c (Pipeline.arrRef spec0 1) (((cfg0.win 1).blk t).view.emb (ix3 0 n d)) = V m c main_arg1 (ix3 (bat t) n d)
  rw [emb1]

theorem slab_iblk2 (c : Dev nD) (t : Fin cfg0.N) :
    slab (B := 1) (R := 1024) (C := 128) (iblk m c 2 t) 0 = slab (B := 32) (R := 1024) (C := 128) (V m c main_arg2) (bat t) := by
  funext n d
  show V m c (Pipeline.arrRef spec0 2) (((cfg0.win 2).blk t).view.emb (ix3 0 n d)) = V m c main_arg2 (ix3 (bat t) n d)
  rw [emb2]

theorem mat_iblk3 (c : Dev nD) (t : Fin cfg0.N) :
    mat (R := 128) (C := 128) (iblk m c 3 t) = mat (R := 128) (C := 128) (V m c main_arg3) := by
  funext e d
  show V m c (Pipeline.arrRef spec0 3) (((cfg0.win 3).blk t).view.emb (ix2 e d)) = V m c main_arg3 (ix2 e d)
  rw [emb3]

theorem vec_iblk4 (c : Dev nD) (t : Fin cfg0.N) :
    vec (C := 128) (iblk m c 4 t) = vec (C := 128) (V m c main_arg4) := by
  funext e
  show V m c (Pipeline.arrRef spec0 4) (((cfg0.win 4).blk t).view.emb (ix1 e)) = V m c main_arg4 (ix1 e)
  rw [emb4]

/-! ## What point `t` writes back is block `t` of the whole-array function -/

theorem flushed5_eq (c : Dev nD) (t : Fin cfg0.N) :
    (dats m 0 c).flushed 5 t = ((cfg0.win 5).blk t).view.read (Elt Ideal)
      (GX (V m c main_arg0) (V m c main_arg1) (V m c main_arg2) (V m c main_arg3) (V m c main_arg4)) := by
  rw [Cert.KernelIdeal.Value.flushed5]
  funext y
  obtain ⟨y0, n, d, rfl⟩ : ∃ (y0 : Fin 1) (n : Fin 1024) (d : Fin 128), y = ix3 y0 n d := ⟨y 0, y 1, y 2, eq_ix3 y⟩
  obtain rfl : y0 = 0 := Subsingleton.elim _ _
  show out0_5 (iblk m c 0 t) (iblk m c 1 t) (iblk m c 2 t) (iblk m c 3 t) (iblk m c 4 t) (ix3 0 n d)
    = GX (V m c main_arg0) (V m c main_arg1) (V m c main_arg2) (V m c main_arg3) (V m c main_arg4) (((cfg0.win 5).blk t).view.emb (ix3 0 n d))
  rw [emb5]
  refine (ker_outX (iblk m c 0 t) (iblk m c 1 t) (iblk m c 2 t) (iblk m c 3 t) (iblk m c 4 t) n d).trans ?_
  rw [slab_iblk0, slab_iblk1, slab_iblk2, mat_iblk3, vec_iblk4]
  rfl

theorem flushed6_eq (c : Dev nD) (t : Fin cfg0.N) :
    (dats m 0 c).flushed 6 t = ((cfg0.win 6).blk t).view.read (Elt Ideal)
      (GY (V m c main_arg0) (V m c main_arg1) (V m c main_arg2) (V m c main_arg3) (V m c main_arg4)) := by
  rw [Cert.KernelIdeal.Value.flushed6]
  funext y
  obtain ⟨y0, k, d, rfl⟩ : ∃ (y0 : Fin 1) (k : Fin 1024) (d : Fin 128), y = ix3 y0 k d := ⟨y 0, y 1, y 2, eq_ix3 y⟩
  obtain rfl : y0 = 0 := Subsingleton.elim _ _
  show out0_6 (iblk m c 0 t) (iblk m c 1 t) (iblk m c 2 t) (iblk m c 3 t) (iblk m c 4 t) (ix3 0 k d)
    = GY (V m c main_arg0) (V m c main_arg1) (V m c main_arg2) (V m c main_arg3) (V m c main_arg4) (((cfg0.win 6).blk t).view.emb (ix3 0 k d))
  rw [emb6]
  refine (ker_outY (iblk m c 0 t) (iblk m c 1 t) (iblk m c 2 t) (iblk m c 3 t) (iblk m c 4 t) k d).trans ?_
  rw [slab_iblk0, slab_iblk1, slab_iblk2, mat_iblk3, vec_iblk4]
  rfl

theorem flushed7_eq (c : Dev nD) (t : Fin cfg0.N) :
    (dats m 0 c).flushed 7 t = ((cfg0.win 7).blk t).view.read (Elt Ideal)
      (GS (V m c main_arg0) (V m c main_arg1) (V m c main_arg2) (V m c main_arg3) (V m c main_arg4)) := by
  rw [Cert.KernelIdeal.Value.flushed7]
  funext y
  obtain ⟨y0, n, k, rfl⟩ : ∃ (y0 : Fin 1) (n : Fin 1024) (k : Fin 1024), y = ix3 y0 n k := ⟨y 0, y 1, y 2, eq_ix3 y⟩
  obtain rfl : y0 = 0 := Subsingleton.elim _ _
  show out0_7 (iblk m c 0 t) (iblk m c 1 t) (iblk m c 2 t) (iblk m c 3 t) (iblk m c 4 t) (ix3 0 n k)
    = GS (V m c main_arg0) (V m c main_arg1) (V m c main_arg2) (V m c main_arg3) (V m c main_arg4) (((cfg0.win 7).blk t).view.emb (ix3 0 n k))
  rw [emb7]
  refine (ker_s (iblk m c 0 t) (iblk m c 1 t) (iblk m c 2 t) (iblk m c 3 t) (iblk m c 4 t) n k).trans ?_
  rw [slab_iblk0, slab_iblk1, slab_iblk2, mat_iblk3, vec_iblk4]
  rfl

/-! ## The 32 blocks tile each result array: index `i` lies in the block of point `i 0` -/

theorem mem_blk5 (t : Fin cfg0.N) (i : S32x1024x128.Idx) :
    i ∈ ((cfg0.win 5).blk t).view.set ↔ ∀ a : Fin 3, win0_5.index t a * S1x1024x128.size a ≤ (i a).val ∧ (i a).val < win0_5.index t a * S1x1024x128.size a + S1x1024x128.size a := by
  show i ∈ ((View.whole main_v0_0).slice (win0_5.rect t)).set ↔ _
  rw [View.set_slice_whole, Rect.mem_set_unit]
  exact Iff.rfl

theorem mem_blk6 (t : Fin cfg0.N) (i : S32x1024x128.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_v0_1).slice (win0_6.rect t)).set ↔ _
  rw [View.set_slice_whole, Rect.mem_set_unit]
  exact Iff.rfl

theorem mem_blk7 (t : Fin cfg0.N) (i : S32x1024x1024.Idx) :
    i ∈ ((cfg0.win 7).blk t).view.set ↔ ∀ a : Fin 3, win0_7.index t a * S1x1024x1024.size a ≤ (i a).val ∧ (i a).val < win0_7.index t a * S1x1024x1024.size a + S1x1024x1024.size a := by
  show i ∈ ((View.whole main_v0_2).slice (win0_7.rect t)).set ↔ _
  rw [View.set_slice_whole, Rect.mem_set_unit]
  exact Iff.rfl

/-- The grid point of batch `b`. -/
def pt (b : Fin 32) : Fin cfg0.N := ⟨b.val, by have h : cfg0.N = 32 := N_0; have := b.isLt; omega⟩

theorem cover5 (i : S32x1024x128.Idx) : ∃ t : Fin cfg0.N, (cfg0.win 5).flush t = true ∧ i ∈ ((cfg0.win 5).blk t).view.set := by
  have hi0 : (i 0).val < 32 := (i 0).isLt
  have hi1 : (i 1).val < 1024 := (i 1).isLt
  have hi2 : (i 2).val < 128 := (i 2).isLt
  refine ⟨pt ⟨(i 0).val, hi0⟩, flush0_5 _, ?_⟩
  rw [mem_blk5]
  obtain ⟨-, -, -, -, -, ⟨e0, e1, e2⟩, -⟩ := idx_facts (pt ⟨(i 0).val, hi0⟩)
  have ht : (pt ⟨(i 0).val, hi0⟩).val = (i 0).val := rfl
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1024 ≤ (i 1).val ∧ (i 1).val < win0_5.index _ (1 : Fin 3) * 1024 + 1024; omega
  | ⟨2, _⟩ => show win0_5.index _ (2 : Fin 3) * 128 ≤ (i 2).val ∧ (i 2).val < win0_5.index _ (2 : Fin 3) * 128 + 128; omega

theorem cover6 (i : S32x1024x128.Idx) : ∃ t : Fin cfg0.N, (cfg0.win 6).flush t = true ∧ i ∈ ((cfg0.win 6).blk t).view.set := by
  have hi0 : (i 0).val < 32 := (i 0).isLt
  have hi1 : (i 1).val < 1024 := (i 1).isLt
  have hi2 : (i 2).val < 128 := (i 2).isLt
  refine ⟨pt ⟨(i 0).val, hi0⟩, flush0_6 _, ?_⟩
  rw [mem_blk6]
  obtain ⟨-, -, -, -, -, -, ⟨e0, e1, e2⟩, -⟩ := idx_facts (pt ⟨(i 0).val, hi0⟩)
  have ht : (pt ⟨(i 0).val, hi0⟩).val = (i 0).val := rfl
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 1024 ≤ (i 1).val ∧ (i 1).val < win0_6.index _ (1 : Fin 3) * 1024 + 1024; omega
  | ⟨2, _⟩ => show win0_6.index _ (2 : Fin 3) * 128 ≤ (i 2).val ∧ (i 2).val < win0_6.index _ (2 : Fin 3) * 128 + 128; omega

theorem cover7 (i : S32x1024x1024.Idx) : ∃ t : Fin cfg0.N, (cfg0.win 7).flush t = true ∧ i ∈ ((cfg0.win 7).blk t).view.set := by
  have hi0 : (i 0).val < 32 := (i 0).isLt
  have hi1 : (i 1).val < 1024 := (i 1).isLt
  have hi2 : (i 2).val < 1024 := (i 2).isLt
  refine ⟨pt ⟨(i 0).val, hi0⟩, flush0_7 _, ?_⟩
  rw [mem_blk7]
  obtain ⟨-, -, -, -, -, -, -, ⟨e0, e1, e2⟩⟩ := idx_facts (pt ⟨(i 0).val, hi0⟩)
  have ht : (pt ⟨(i 0).val, hi0⟩).val = (i 0).val := rfl
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 1024 ≤ (i 1).val ∧ (i 1).val < win0_7.index _ (1 : Fin 3) * 1024 + 1024; omega
  | ⟨2, _⟩ => show win0_7.index _ (2 : Fin 3) * 1024 ≤ (i 2).val ∧ (i 2).val < win0_7.index _ (2 : Fin 3) * 1024 + 1024; omega

/-! ## The result arrays after the run -/

theorem final5 (c : Dev nD) : (dats m 0 c).arrAt 5 cfg0.N
    = GX (V m c main_arg0) (V m c main_arg1) (V m c main_arg2) (V m c main_arg3) (V m c main_arg4) :=
  (dats m 0 c).arrAt_eq_of_cover 5 _ (fun t _ => flushed5_eq m c t) cover5

theorem final6 (c : Dev nD) : (dats m 0 c).arrAt 6 cfg0.N
    = GY (V m c main_arg0) (V m c main_arg1) (V m c main_arg2) (V m c main_arg3) (V m c main_arg4) :=
  (dats m 0 c).arrAt_eq_of_cover 6 _ (fun t _ => flushed6_eq m c t) cover6

theorem final7 (c : Dev nD) : (dats m 0 c).arrAt 7 cfg0.N
    = GS (V m c main_arg0) (V m c main_arg1) (V m c main_arg2) (V m c main_arg3) (V m c main_arg4) :=
  (dats m 0 c).arrAt_eq_of_cover 7 _ (fun t _ => flushed7_eq m c t) cover7

end Cert.DualAttn.Blocks

end
-- ==== Proof.lean ====
/-
  The kernel computes, per batch element, the dual-direction attention of the reference — and the two agree as extended
  reals on finite inputs.

  Per batch: coeff = tanh (weights · A_wᵀ + A_b), the affinity z = (Xs ∘ coeff) · Ysᵀ, s = softplus z − 1/2, the softmax of s
  along each row against Ys (attention_x) and along each column against Xs (attention_y). The kernel writes softplus as
  log (1 + e^z) and takes both softmax numerators from the one exponential, (1 + e^z) · e^(−1/2 − max), normalising by a
  product with the reciprocal of the sum; the reference writes softplus as max z 0 + log (1 + e^(−|z|)), the numerator as
  e^(s − max), and divides by the sum. A change of float format is the identity on extended reals, a matrix product into a
  zero accumulator is the host's contraction, and sums do not depend on their order; what is left is the law between the
  two spellings, which holds where every input entry is a real number (then z, s and the maxima are reals and the sums
  positive reals) — the precondition.

  The kernel's side: the generated frame run names each result array after the run; the body's arithmetic read at an
  index and the tiling of the result arrays by the 32 per-batch blocks make each array one function of the arguments
  (AttnKerFront, AttnKerBack, AttnKer, AttnBlocks). The reference's side: its generated run and read-at-an-index lemmas
  make each result the second spelling (AttnRef). The law (AttnLaw) and the finiteness of the inputs (AttnFinite) join them.
  The ideal pass rewrote nothing, so there is nothing to preserve beyond the program's own text.
-/
import proofs.«400862_j48893907698163_3_alg».proof.Defs
import proofs.«400862_j48893907698163_3_alg».proof.Proof.Gen.Kernel
import proofs.«400862_j48893907698163_3_alg».proof.Proof.Gen.Kernel.Frame
import proofs.«400862_j48893907698163_3_alg».proof.Proof.Gen.KernelIdeal
import proofs.«400862_j48893907698163_3_alg».proof.Proof.Gen.KernelIdeal.Frame
import proofs.«400862_j48893907698163_3_alg».proof.Proof.Gen.KernelIdeal.Value
import proofs.«400862_j48893907698163_3_alg».proof.Proof.Gen.ReferenceIdeal
import proofs.«400862_j48893907698163_3_alg».proof.Proof.Gen.ReferenceIdeal.Run
import proofs.«400862_j48893907698163_3_alg».proof.Proof.Gen.ReferenceIdeal.Read
import proofs.«400862_j48893907698163_3_alg».proof.Proof.Gen.Pre_finite_inputs
import proofs.«400862_j48893907698163_3_alg».proof.Proof.AttnSpec
import proofs.«400862_j48893907698163_3_alg».proof.Proof.AttnFinite
import proofs.«400862_j48893907698163_3_alg».proof.Proof.AttnLaw
import proofs.«400862_j48893907698163_3_alg».proof.Proof.AttnRef
import proofs.«400862_j48893907698163_3_alg».proof.Proof.AttnBlocks
import Idealize.ShloMosaic.Lib.Pipeline.Value
import Idealize.ShloMosaic.Lib.ValueIdx
import Idealize.ShloMosaic.Adequacy
import Idealize.ShloMosaic.Init

noncomputable section

/-! ## The claims -/

namespace Cert.Proof

open Idealize.ShloMosaic Idealize.SL.Sem Idealize.ShloMosaic.ValueIdx Cert.DualAttn Cert.DualAttn.Blocks

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => GX (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => GY (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => GS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    ?_, ?_⟩
  · exact (θ_run Cert.KernelIdeal.defs _ _).mono
      (fun r h c => ⟨(h c).1.trans (final5 m c), (h c).2.1.trans (final6 m c), (h c).2.2.1.trans (final7 m c), (h c).2.2.2⟩)
      (Cert.KernelIdeal.Value.run_blocks m ρ)
  · refine (θ_run Cert.ReferenceIdeal.defs _ _).mono (fun r h c => ?_) (Cert.ReferenceIdeal.Value.run (F := Ideal) m' ρ')
    obtain ⟨h0, h1, h2, h3, h4⟩ := Cert.DualAttn.Finite.real_of_pre _ _ _ _ _ (hpre c)
    obtain ⟨g0, g1, g2, g3, g4⟩ := hagree c
    have r0 : ∀ b : Fin 32, Real2 (slab (B := 32) (R := 1024) (C := 128) (m ((c.tc : Thread Cert.KernelIdeal.nD Cert.KernelIdeal.τ).loc Cert.KernelIdeal.main_arg0)) b) := fun b n d => h0 _
    have r1 : ∀ b : Fin 32, Real2 (slab (B := 32) (R := 1024) (C := 128) (m ((c.tc : Thread Cert.KernelIdeal.nD Cert.KernelIdeal.τ).loc Cert.KernelIdeal.main_arg1)) b) := fun b n d => h1 _
    have r2 : ∀ b : Fin 32, Real2 (slab (B := 32) (R := 1024) (C := 128) (m ((c.tc : Thread Cert.KernelIdeal.nD Cert.KernelIdeal.τ).loc Cert.KernelIdeal.main_arg2)) b) := fun b n d => h2 _
    have r3 : Real2 (mat (R := 128) (C := 128) (m ((c.tc : Thread Cert.KernelIdeal.nD Cert.KernelIdeal.τ).loc Cert.KernelIdeal.main_arg3))) := fun e d => h3 _
    have r4 : Real1 (vec (C := 128) (m ((c.tc : Thread Cert.KernelIdeal.nD Cert.KernelIdeal.τ).loc Cert.KernelIdeal.main_arg4))) := fun e => h4 _
    refine ⟨(h c).1.trans ?_, (h c).2.1.trans ?_, (h c).2.2.1.trans ?_, (h c).2.2.2⟩
    · rw [Cert.ReferenceIdeal.Read.val_main_v32_eq, g0, g1, g2, g3, g4]
      funext i
      obtain ⟨b, n, d, rfl⟩ : ∃ (b : Fin 32) (n : Fin 1024) (d : Fin 128), i = ix3 b n d := ⟨i 0, i 1, i 2, eq_ix3 i⟩
      rw [Cert.DualAttn.Ref.ref_outX]
      exact outX_law (r0 b) (r1 b) (r2 b) r3 r4 n d
    · rw [Cert.ReferenceIdeal.Read.val_main_v33_eq, g0, g1, g2, g3, g4]
      funext i
      obtain ⟨b, k, d, rfl⟩ : ∃ (b : Fin 32) (k : Fin 1024) (d : Fin 128), i = ix3 b k d := ⟨i 0, i 1, i 2, eq_ix3 i⟩
      rw [Cert.DualAttn.Ref.ref_outY]
      exact outY_law (r0 b) (r1 b) (r2 b) r3 r4 k d
    · rw [Cert.ReferenceIdeal.Read.val_main_v9_eq, g0, g1, g2, g3, g4]
      funext i
      obtain ⟨b, n, k, rfl⟩ : ∃ (b : Fin 32) (n : Fin 1024) (k : Fin 1024), i = ix3 b n k := ⟨i 0, i 1, i 2, eq_ix3 i⟩
      rw [Cert.DualAttn.Ref.ref_s]
      exact s_law (r0 b) (r1 b) (r2 b) r3 r4 n k

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
